-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S2x4096x512 .f32) (main_arg1 : FVec F S1536x512 .f32) (main_arg2 : FVec F S512x512 .f32) (main_arg3 : FVec F S512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S2x8x4096x64 : Shape := ⟨4, ![2, 8, 4096, 64]⟩
abbrev S1x512x512 : Shape := ⟨3, ![1, 512, 512]⟩
abbrev S1x8x512x64 : Shape := ⟨4, ![1, 8, 512, 64]⟩
abbrev S512x1536 : Shape := ⟨2, ![512, 1536]⟩
abbrev S512x8x64 : Shape := ⟨3, ![512, 8, 64]⟩
abbrev S8x512x64 : Shape := ⟨3, ![8, 512, 64]⟩
abbrev S1x1x512x64 : Shape := ⟨4, ![1, 1, 512, 64]⟩
abbrev S1x1x4096x64 : Shape := ⟨4, ![1, 1, 4096, 64]⟩
abbrev S512x64 : Shape := ⟨2, ![512, 64]⟩
abbrev S4096x64 : Shape := ⟨2, ![4096, 64]⟩
abbrev S64x4096 : Shape := ⟨2, ![64, 4096]⟩
abbrev S512x4096 : Shape := ⟨2, ![512, 4096]⟩
abbrev S1x512 : Shape := ⟨2, ![1, 512]⟩

abbrev nBuf : Space → Nat
  | .hbm => 11
  | .vmem => 23
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1536x512, .bf16⟩
  | .hbm, ⟨5, _⟩ => ⟨S512x512, .bf16⟩
  | .hbm, ⟨6, _⟩ => ⟨S2x8x4096x64, .bf16⟩
  | .hbm, ⟨7, _⟩ => ⟨S2x8x4096x64, .bf16⟩
  | .hbm, ⟨8, _⟩ => ⟨S2x8x4096x64, .bf16⟩
  | .hbm, ⟨9, _⟩ => ⟨S2x8x4096x64, .bf16⟩
  | .hbm, ⟨10, _⟩ => ⟨S2x4096x512, .f32⟩
  | .local _ .vmem, ⟨0, _⟩ => ⟨S1x512x512, .f32⟩
  | .local _ .vmem, ⟨1, _⟩ => ⟨S1x512x512, .f32⟩
  | .local _ .vmem, ⟨2, _⟩ => ⟨S1536x512, .bf16⟩
  | .local _ .vmem, ⟨3, _⟩ => ⟨S1x8x512x64, .bf16⟩
  | .local _ .vmem, ⟨4, _⟩ => ⟨S1x8x512x64, .bf16⟩
  | .local _ .vmem, ⟨5, _⟩ => ⟨S1x8x512x64, .bf16⟩
  | .local _ .vmem, ⟨6, _⟩ => ⟨S1x8x512x64, .bf16⟩
  | .local _ .vmem, ⟨7, _⟩ => ⟨S1x8x512x64, .bf16⟩
  | .local _ .vmem, ⟨8, _⟩ => ⟨S1x8x512x64, .bf16⟩
  | .local _ .vmem, ⟨9, _⟩ => ⟨S1x1x512x64, .bf16⟩
  | .local _ .vmem, ⟨10, _⟩ => ⟨S1x1x512x64, .bf16⟩
  | .local _ .vmem, ⟨11, _⟩ => ⟨S1x1x4096x64, .bf16⟩
  | .local _ .vmem, ⟨12, _⟩ => ⟨S1x1x4096x64, .bf16⟩
  | .local _ .vmem, ⟨13, _⟩ => ⟨S1x1x4096x64, .bf16⟩
  | .local _ .vmem, ⟨14, _⟩ => ⟨S1x1x4096x64, .bf16⟩
  | .local _ .vmem, ⟨15, _⟩ => ⟨S1x1x512x64, .bf16⟩
  | .local _ .vmem, ⟨16, _⟩ => ⟨S1x1x512x64, .bf16⟩
  | .local _ .vmem, ⟨17, _⟩ => ⟨S1x8x512x64, .bf16⟩
  | .local _ .vmem, ⟨18, _⟩ => ⟨S1x8x512x64, .bf16⟩
  | .local _ .vmem, ⟨19, _⟩ => ⟨S512x512, .bf16⟩
  | .local _ .vmem, ⟨20, _⟩ => ⟨S512, .f32⟩
  | .local _ .vmem, ⟨21, _⟩ => ⟨S1x512x512, .f32⟩
  | .local _ .vmem, ⟨22, _⟩ => ⟨S1x512x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![2, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  transposes_S1536x512_p1_0_S512x1536 : S1536x512.Transposes [1, 0] S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  shapeCasts_S512x512_S512x8x64 : S512x512.ShapeCasts S512x8x64
  transposes_S512x8x64_p1_0_2_S8x512x64 : S512x8x64.Transposes [1, 0, 2] S8x512x64
  inb_S1x8x512x64_S1x8x512x64_0_0_0_0 : ∀ a, (![0, 0, 0, 0] : Fin 4 → Nat) a + S1x8x512x64.size a ≤ S1x8x512x64.size a
  h_S1x8x512x64 : 0 < S1x8x512x64.numel
  shapeCasts_S1x8x512x64_S8x512x64 : S1x8x512x64.ShapeCasts S8x512x64
  shapeCasts_S8x512x64_S1x8x512x64 : S8x512x64.ShapeCasts S1x8x512x64
  packedbf16_S1x8x512x64_S1x8x512x64_0_0_0_0 : (Rect.unit (s := S1x8x512x64) ![0, 0, 0, 0] S1x8x512x64.size inb_S1x8x512x64_S1x8x512x64_0_0_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  transposes_S4096x64_p1_0_S64x4096 : S4096x64.Transposes [1, 0] S64x4096
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S8x512x64_p1_0_2_S512x8x64 : S8x512x64.Transposes [1, 0, 2] S512x8x64
  shapeCasts_S512x8x64_S512x512 : S512x8x64.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S1x512x512 : S512x512.ShapeCasts S1x512x512
  dot_S512x512_S512x1536_S512x1536_1_0_0_1_n_n_wf : DotDims.WF S512x512 S512x1536 S512x1536 [1] [0] [0] [1] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x4096x512.size a
  hwx0_0 : ∀ i : grid0.Coords, EltTy.bits .f32 = 32 ∨ (Rect.block (s := S2x4096x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x64.size a ≤ S2x8x4096x64.size a
  hwx0_2 : ∀ i : grid0.Coords, EltTy.bits .bf16 = 32 ∨ (Rect.block (s := S2x8x4096x64) S1x8x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512x64.size a ≤ S2x8x4096x64.size a
  hwx0_3 : ∀ i : grid0.Coords, EltTy.bits .bf16 = 32 ∨ (Rect.block (s := S2x8x4096x64) S1x8x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512x64.size a ≤ S2x8x4096x64.size a
  hwx0_4 : ∀ i : grid0.Coords, EltTy.bits .bf16 = 32 ∨ (Rect.block (s := S2x8x4096x64) S1x8x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x8x4096x64.size a
  hwx1_0 : ∀ i : grid1.Coords, EltTy.bits .bf16 = 32 ∨ (Rect.block (s := S2x8x4096x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096x64.size a ≤ S2x8x4096x64.size a
  hwx1_1 : ∀ i : grid1.Coords, EltTy.bits .bf16 = 32 ∨ (Rect.block (s := S2x8x4096x64) S1x1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x64.size a ≤ S2x8x4096x64.size a
  hwx1_2 : ∀ i : grid1.Coords, EltTy.bits .bf16 = 32 ∨ (Rect.block (s := S2x8x4096x64) S1x1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S2x8x4096x64.size a
  hwx1_3 : ∀ i : grid1.Coords, EltTy.bits .bf16 = 32 ∨ (Rect.block (s := S2x8x4096x64) S1x1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x512x64.size a ≤ S2x8x4096x64.size a
  hwx2_0 : ∀ i : grid2.Coords, EltTy.bits .bf16 = 32 ∨ (Rect.block (s := S2x8x4096x64) S1x8x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S2x4096x512.size a
  hwx2_3 : ∀ i : grid2.Coords, EltTy.bits .f32 = 32 ∨ (Rect.block (s := S2x4096x512) S1x512x512.size (cc2_transform_3 i) (hinb2_3 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x8x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1x8x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S2x4096x1536 : Shape := ⟨3, ![2, 4096, 1536]⟩
abbrev S2x4096x8x64 : Shape := ⟨4, ![2, 4096, 8, 64]⟩
abbrev S2x8x4096x64 : Shape := ⟨4, ![2, 8, 4096, 64]⟩
abbrev S_ : Shape := ⟨0, ![]⟩
abbrev S2x8x4096x4096 : Shape := ⟨4, ![2, 8, 4096, 4096]⟩
abbrev S1x1x512 : Shape := ⟨3, ![1, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S2x4096x1536, .f32⟩
  | .hbm, ⟨5, _⟩ => ⟨S2x4096x512, .f32⟩
  | .hbm, ⟨6, _⟩ => ⟨S2x4096x512, .f32⟩
  | .hbm, ⟨7, _⟩ => ⟨S2x4096x512, .f32⟩
  | .hbm, ⟨8, _⟩ => ⟨S2x4096x8x64, .f32⟩
  | .hbm, ⟨9, _⟩ => ⟨S2x8x4096x64, .f32⟩
  | .hbm, ⟨10, _⟩ => ⟨S2x4096x8x64, .f32⟩
  | .hbm, ⟨11, _⟩ => ⟨S2x8x4096x64, .f32⟩
  | .hbm, ⟨12, _⟩ => ⟨S2x4096x8x64, .f32⟩
  | .hbm, ⟨13, _⟩ => ⟨S2x8x4096x64, .f32⟩
  | .hbm, ⟨14, _⟩ => ⟨S_, .f32⟩
  | .hbm, ⟨15, _⟩ => ⟨S2x8x4096x64, .f32⟩
  | .hbm, ⟨16, _⟩ => ⟨S2x8x4096x64, .f32⟩
  | .hbm, ⟨17, _⟩ => ⟨S2x8x4096x4096, .f32⟩
  | .hbm, ⟨18, _⟩ => ⟨S_, .f32⟩
  | .hbm, ⟨19, _⟩ => ⟨S2x8x4096x4096, .f32⟩
  | .hbm, ⟨20, _⟩ => ⟨S2x8x4096x4096, .f32⟩
  | .hbm, ⟨21, _⟩ => ⟨S2x8x4096x64, .f32⟩
  | .hbm, ⟨22, _⟩ => ⟨S2x4096x8x64, .f32⟩
  | .hbm, ⟨23, _⟩ => ⟨S2x4096x512, .f32⟩
  | .hbm, ⟨24, _⟩ => ⟨S2x4096x512, .f32⟩
  | .hbm, ⟨25, _⟩ => ⟨S1x1x512, .f32⟩
  | .hbm, ⟨26, _⟩ => ⟨S2x4096x512, .f32⟩
  | .hbm, ⟨27, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  slices_S2x4096x1536_S2x4096x512_0_0_0 : S2x4096x1536.Slices ![0, 0, 0] S2x4096x512
  slices_S2x4096x1536_S2x4096x512_0_0_512 : S2x4096x1536.Slices ![0, 0, 512] S2x4096x512
  slices_S2x4096x1536_S2x4096x512_0_0_1024 : S2x4096x1536.Slices ![0, 0, 1024] S2x4096x512
  shapeCasts_S2x4096x512_S2x4096x8x64 : S2x4096x512.ShapeCasts S2x4096x8x64
  transposes_S2x4096x8x64_S2x8x4096x64_0_2_1_3 : S2x4096x8x64.Transposes [0, 2, 1, 3] S2x8x4096x64
  bcast_S_S2x8x4096x64 : S_.BroadcastsInDim S2x8x4096x64 (![] : Fin 0 → Fin S2x8x4096x64.rank)
  bcast_S_S2x8x4096x4096 : S_.BroadcastsInDim S2x8x4096x4096 (![] : Fin 0 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  dot_S2x4096x512_S1536x512_S2x4096x1536_2_1_01_0_n_n_wf : DotDims.WF S2x4096x512 S1536x512 S2x4096x1536 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]
  dot_S2x4096x512_S512x512_S2x4096x512_2_1_01_0_n_n_wf : DotDims.WF S2x4096x512 S512x512 S2x4096x512 [2] [1] [0, 1] [0] [] []

variable [Facts₀]

def dot_S2x4096x512_S1536x512_S2x4096x1536_2_1_01_0_n_n : DotDims S2x4096x512 S1536x512 S2x4096x1536 where
  lhsContracting := [2]
  rhsContracting := [1]
  lhsNonContracting := [0, 1]
  rhsNonContracting := [0]
  lhsBatch := []
  rhsBatch := []
  wf := dot_S2x4096x512_S1536x512_S2x4096x1536_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf
def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf

class Facts : Prop extends Facts₀ where

variable [Facts]
-- ==== Proof.Spec.lean ====
/-
  The mathematics both programs compute, over the extended reals, as functions of the four argument arrays
  x : [2, 4096, 512], Wqkv : [1536, 512], Wout : [512, 512], bias : [512].

  Row n of batch b is projected on the 1536 rows of Wqkv; features [0, 512) are the queries, [512, 1024) the keys,
  [1024, 1536) the values, and feature h * 64 + d belongs to head h at depth d. The queries are scaled by the
  float 1/8 (an exact dyadic, kept as its bit pattern: neither side ever evaluates it). A score is the query row
  against a key row over the 64 depths, clipped below at the float zero; a head's output is the scores against the
  value rows over all 4096 positions (no normalisation); the result merges the heads back to feature e = h * 64 + d,
  projects on the rows of Wout and adds the bias.

  Only sums and products of extended reals appear, each written ONCE here, so that the kernel's three launches and
  the reference's one host program are both shown to be these functions, index by index, with no algebraic law
  between them beyond re-indexing a contraction by its one coordinate.
-/
import Idealize.ShloMosaic.PureOps.Ideal
import Idealize.ShloMosaic.Lib.ValueIdx

noncomputable section

namespace Cert.ReluAttn

open Idealize.ShloMosaic Idealize.ShloMosaic.ValueIdx
open scoped BigOperators

abbrev SX : Shape := ⟨3, ![2, 4096, 512]⟩
abbrev SWqkv : Shape := ⟨2, ![1536, 512]⟩
abbrev SWout : Shape := ⟨2, ![512, 512]⟩
abbrev SBias : Shape := ⟨1, ![512]⟩
abbrev SHeads : Shape := ⟨4, ![2, 8, 4096, 64]⟩

/-- The query scale 1/8 as the float both programs carry. -/
abbrev scale : EReal := Ideal.ofBits .f32 0x3E000000#32
/-- The float zero the scores are clipped at. -/
abbrev floor0 : EReal := Ideal.ofBits .f32 0x00000000#32

/-- Feature `off + h * 64 + d` of the projection: head `h`, depth `d` of the third that starts at `off`. -/
def feat (off : Nat) (hoff : off + 512 ≤ 1536) (h : Fin 8) (d : Fin 64) : Fin 1536 :=
  ⟨off + (h.val * 64 + d.val), by have := h.isLt; have := d.isLt; omega⟩

/-- Row `n` of batch `b` against row `e` of the projection weight. -/
def projAt (x : SX.Idx → EReal) (w : SWqkv.Idx → EReal) (b : Fin 2) (n : Fin 4096) (e : Fin 1536) : EReal :=
  ∑ k : Fin 512, x (ix3 b n k) * w (ix2 e k)

/-- The scaled query of head `h` at position `n`, depth `d`. -/
def qAt (x : SX.Idx → EReal) (w : SWqkv.Idx → EReal) (b : Fin 2) (h : Fin 8) (n : Fin 4096) (d : Fin 64) : EReal :=
  projAt x w b n (feat 0 (by omega) h d) * scale
/-- The key. -/
def kAt (x : SX.Idx → EReal) (w : SWqkv.Idx → EReal) (b : Fin 2) (h : Fin 8) (n : Fin 4096) (d : Fin 64) : EReal :=
  projAt x w b n (feat 512 (by omega) h d)
/-- The value. -/
def vAt (x : SX.Idx → EReal) (w : SWqkv.Idx → EReal) (b : Fin 2) (h : Fin 8) (n : Fin 4096) (d : Fin 64) : EReal :=
  projAt x w b n (feat 1024 (by omega) h d)

/-- The three head-major arrays [2, 8, 4096, 64]. -/
def qArr (x : SX.Idx → EReal) (w : SWqkv.Idx → EReal) : SHeads.Idx → EReal := fun i => qAt x w (i 0) (i 1) (i 2) (i 3)
def kArr (x : SX.Idx → EReal) (w : SWqkv.Idx → EReal) : SHeads.Idx → EReal := fun i => kAt x w (i 0) (i 1) (i 2) (i 3)
def vArr (x : SX.Idx → EReal) (w : SWqkv.Idx → EReal) : SHeads.Idx → EReal := fun i => vAt x w (i 0) (i 1) (i 2) (i 3)

/-- The clipped score of query position `n` against key position `m` in head `h` of batch `b`. -/
def scoreAt (q k : SHeads.Idx → EReal) (b : Fin 2) (h : Fin 8) (n m : Fin 4096) : EReal :=
  max (∑ d : Fin 64, q (ix4 b h n d) * k (ix4 b h m d)) floor0

/-- A head's output: the scores against the value rows, over every position. -/
def attnAt (q k v : SHeads.Idx → EReal) (b : Fin 2) (h : Fin 8) (n : Fin 4096) (d : Fin 64) : EReal :=
  ∑ m : Fin 4096, scoreAt q k b h n m * v (ix4 b h m d)

def attnArr (q k v : SHeads.Idx → EReal) : SHeads.Idx → EReal := fun i => attnAt q k v (i 0) (i 1) (i 2) (i 3)

/-- The head of merged feature `e`, and its depth. -/
def headOf (e : Fin 512) : Fin 8 := ⟨e.val / 64, by have := e.isLt; omega⟩
def depthOf (e : Fin 512) : Fin 64 := ⟨e.val % 64, by omega⟩

/-- The output projection with its bias: the merged heads of row `n` against row `o` of the output weight. -/
def outAt (a : SHeads.Idx → EReal) (wo : SWout.Idx → EReal) (bias : SBias.Idx → EReal) (b : Fin 2) (n : Fin 4096) (o : Fin 512) : EReal :=
  (∑ e : Fin 512, a (ix4 b (headOf e) n (depthOf e)) * wo (ix2 o e)) + bias (ix1 o)

def outArr (a : SHeads.Idx → EReal) (wo : SWout.Idx → EReal) (bias : SBias.Idx → EReal) : SX.Idx → EReal :=
  fun i => outAt a wo bias (i 0) (i 1) (i 2)

/-- The whole computation of the four arguments. -/
def result (x : SX.Idx → EReal) (w : SWqkv.Idx → EReal) (wo : SWout.Idx → EReal) (bias : SBias.Idx → EReal) : SX.Idx → EReal :=
  outArr (attnArr (qArr x w) (kArr x w) (vArr x w)) wo bias

end Cert.ReluAttn

end
-- ==== Proof.QkvLaunch.lean ====
/-
  The first launch: the projection of x on the rows of Wqkv, split into scaled queries, keys and values and laid
  out head-major.

  At each of the 2 × 8 grid points (batch b, row tile n) the body multiplies the 512 rows [512 n, 512 n + 512) of
  batch b of x by the transposed weight: entry (r, e) of the product is row 512 n + r of batch b against row e of the
  weight, a sum over the 512 input features. Columns [0, 512) of the product times the float 1/8 are the queries,
  columns [512, 1024) the keys, columns [1024, 1536) the values; column h * 64 + d of a third is head h at depth d,
  and the body stores the third as the [1, 8, 512, 64] block whose entry (0, h, r, d) is entry (r, h * 64 + d).
  That block is written back to rows [512 n, 512 n + 512) of every head of batch b, so it is exactly that block of
  the specification's array; the sixteen blocks tile [2, 8, 4096, 64], so each output array ends as the
  specification's array. No law of the extended reals is used beyond naming the contraction's coordinate.
-/
import proofs.«169202_j19542101197412_1_alg».proof.Proof.Gen.KernelIdeal.Frame
import proofs.«169202_j19542101197412_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.QkvLaunch

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

-- the core's buffer contents when the launch is entered
variable (V : (c : Dev nD) → (b : Ref sig .tc) → Buf (Elt Ideal) ((c : Thread nD τ).loc b))

/-! ## The shared product: one row of the input block against one row of the weight

The body multiplies the [512, 512] block of rows (the block's unit axis dropped) by the transposed [512, 1536]
weight into a zero accumulator. Entry (r, e) is row r of the block against row e of the weight over the 512
input features: the contraction's one coordinate is re-indexed to a plain Fin 512. -/

theorem lhs_ax0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem lhs_ax1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
theorem rhs_ax0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
theorem rhs_ax1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- The left operand at (r, k): the block's row r, feature k (the leading unit axis dropped, no rounding at the
    extended reals). -/
theorem lhs_read (x0 : Vec Ideal S1x512x512 .f32) (r k : Fin 512) :
    (truncf .bf16 (shapeCast S512x512 x0 shapeCasts_S1x512x512_S512x512) bitsLt_bf16_f32 : FVec Ideal S512x512 .bf16) (ix2 r k)
      = x0 (ix3 0 r k) := by
  show shapeCast S512x512 x0 shapeCasts_S1x512x512_S512x512 (ix2 r k) = x0 (ix3 0 r k)
  refine shapeCast_apply x0 shapeCasts_S1x512x512_S512x512 (ix2 r k) (ix3 0 r k) ?_
  rw [Shape.rowMajor_val_three, Shape.rowMajor_val_two]
  show ((0 : Fin 1).val * 512 + r.val) * 512 + k.val = r.val * 512 + k.val
  simp

/-- The right operand at (k, e): the weight's row e, feature k (the transpose read back). -/
theorem rhs_read (x1 : Vec Ideal S1536x512 .bf16) (k : Fin 512) (e : Fin 1536) :
    (transpose S512x1536 [1, 0] (shapeCast S1536x512 x1 shapeCasts_S1536x512_S1536x512) transposes_S1536x512_p1_0_S512x1536 : FVec Ideal S512x1536 .bf16) (ix2 k e)
      = x1 (ix2 e k) := by
  rw [shapeCast_self]
  refine transpose_apply [1, 0] x1 transposes_S1536x512_p1_0_S512x1536 (ix2 k e) (ix2 e k) fun b => ?_
  match b with
  | ⟨0, _⟩ => rfl
  | ⟨1, _⟩ => rfl

/-- Entry (r, e) of the product. -/
theorem pay1_apply (x0 : Vec Ideal S1x512x512 .f32) (x1 : Vec Ideal S1536x512 .bf16) (r : Fin 512) (e : Fin 1536) :
    k0_pay1 (F := Ideal) x0 x1 (ix2 r e) = ∑ k : Fin 512, x0 (ix3 0 r k) * x1 (ix2 e k) := by
  unfold k0_pay1
  refine (Ideal.matmul_constant_zero_apply dot_S512x512_S512x1536_S512x1536_1_0_0_1_n_n none _ _ (ix2 r e)).trans ?_
  rw [← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 r e) ((contrEquiv1 dot_S512x512_S512x1536_S512x1536_1_0_0_1_n_n 512 rfl rfl).symm k) = ix2 r k := funext fun a => Fin.ext (by
    match a with
    | ⟨0, _⟩ => exact lhs_ax0 _ _
    | ⟨1, _⟩ => exact (lhs_ax1 _ _).trans hk)
  have er : dot_S512x512_S512x1536_S512x1536_1_0_0_1_n_n.rhsIdx (ix2 r e) ((contrEquiv1 dot_S512x512_S512x1536_S512x1536_1_0_0_1_n_n 512 rfl rfl).symm k) = ix2 k e := funext fun a => Fin.ext (by
    match a with
    | ⟨0, _⟩ => exact (rhs_ax0 _ _).trans hk
    | ⟨1, _⟩ => exact rhs_ax1 _ _)
  rw [el, er, lhs_read, rhs_read]

/-! ## From a [512, 512] third of the product to the head-major block

Column h * 64 + d of a third is head h, depth d: the body reshapes [512, 512] to [512, 8, 64], swaps the first two
axes, and adds a leading unit axis. Entry (0, h, r, d) of what it stores is entry (r, h * 64 + d) of the third. -/

/-- Column `h * 64 + d` of a third. -/
def col (h : Fin 8) (d : Fin 64) : Fin 512 := ⟨h.val * 64 + d.val, by have := h.isLt; have := d.isLt; omega⟩

theorem heads_read (y : FVec Ideal S512x512 .f32) (h : Fin 8) (r : Fin 512) (d : Fin 64) :
    (shapeCast S1x8x512x64 (truncf .bf16 (transpose S8x512x64 [1, 0, 2] (shapeCast S512x8x64 y shapeCasts_S512x512_S512x8x64) transposes_S512x8x64_p1_0_2_S8x512x64) bitsLt_bf16_f32 : FVec Ideal S8x512x64 .bf16) shapeCasts_S8x512x64_S1x8x512x64 : FVec Ideal S1x8x512x64 .bf16) (ix4 0 h r d)
      = y (ix2 r (col h d)) := by
  refine (shapeCast_apply _ shapeCasts_S8x512x64_S1x8x512x64 (ix4 0 h r d) (ix3 h r d) ?_).trans ?_
  · rw [Shape.rowMajor_val_three, Shape.rowMajor_val_four]
    show (h.val * 512 + r.val) * 64 + d.val = (((0 : Fin 1).val * 8 + h.val) * 512 + r.val) * 64 + d.val
    simp
  show transpose S8x512x64 [1, 0, 2] (shapeCast S512x8x64 y shapeCasts_S512x512_S512x8x64) transposes_S512x8x64_p1_0_2_S8x512x64 (ix3 h r d) = _
  refine (transpose_apply [1, 0, 2] _ transposes_S512x8x64_p1_0_2_S8x512x64 (ix3 h r d) (ix3 r h d) fun b => ?_).trans ?_
  · match b with
    | ⟨0, _⟩ => rfl
    | ⟨1, _⟩ => rfl
    | ⟨2, _⟩ => rfl
  refine shapeCast_apply y shapeCasts_S512x512_S512x8x64 (ix3 r h d) (ix2 r (col h d)) ?_
  rw [Shape.rowMajor_val_two, Shape.rowMajor_val_three]
  show r.val * 512 + (h.val * 64 + d.val) = (r.val * 8 + h.val) * 64 + d.val
  omega

/-- A third of the product read at (r, f): the product at column `off + f`. -/
theorem third0_read (y : FVec Ideal S512x1536 .f32) (r f : Fin 512) (e : Fin 1536) (he : e.val = 0 + f.val) :
    extractStridedSlice S512x512 ![0, 0] y slices_S512x1536_o0_0_S512x512 (ix2 r f) = y (ix2 r e) :=
  extractStridedSlice_apply ![0, 0] y slices_S512x1536_o0_0_S512x512 (ix2 r f) (ix2 r e) fun a => match a with
    | ⟨0, _⟩ => by show r.val = 0 + r.val; omega
    | ⟨1, _⟩ => by show e.val = 0 + f.val; exact he
theorem third1_read (y : FVec Ideal S512x1536 .f32) (r f : Fin 512) (e : Fin 1536) (he : e.val = 512 + f.val) :
    extractStridedSlice S512x512 ![0, 512] y slices_S512x1536_o0_512_S512x512 (ix2 r f) = y (ix2 r e) :=
  extractStridedSlice_apply ![0, 512] y slices_S512x1536_o0_512_S512x512 (ix2 r f) (ix2 r e) fun a => match a with
    | ⟨0, _⟩ => by show r.val = 0 + r.val; omega
    | ⟨1, _⟩ => by show e.val = 512 + f.val; exact he
theorem third2_read (y : FVec Ideal S512x1536 .f32) (r f : Fin 512) (e : Fin 1536) (he : e.val = 1024 + f.val) :
    extractStridedSlice S512x512 ![0, 1024] y slices_S512x1536_o0_1024_S512x512 (ix2 r f) = y (ix2 r e) :=
  extractStridedSlice_apply ![0, 1024] y slices_S512x1536_o0_1024_S512x512 (ix2 r f) (ix2 r e) fun a => match a with
    | ⟨0, _⟩ => by show r.val = 0 + r.val; omega
    | ⟨1, _⟩ => by show e.val = 1024 + f.val; exact he

/-- The stored query block at (0, h, r, d): row r of the input block against weight row h * 64 + d, scaled. -/
theorem pay2_apply (x0 : Vec Ideal S1x512x512 .f32) (x1 : Vec Ideal S1536x512 .bf16) (h : Fin 8) (r : Fin 512) (d : Fin 64) :
    k0_pay2 (F := Ideal) x0 x1 (ix4 0 h r d)
      = (∑ k : Fin 512, x0 (ix3 0 r k) * x1 (ix2 (Cert.ReluAttn.feat 0 (by omega) h d) k)) * Cert.ReluAttn.scale := by
  unfold k0_pay2
  refine (heads_read _ h r d).trans ?_
  show extractStridedSlice S512x512 ![0, 0] (k0_pay1 (F := Ideal) x0 x1) slices_S512x1536_o0_0_S512x512 (ix2 r (col h d)) * Cert.ReluAttn.scale = _
  exact congrArg (· * Cert.ReluAttn.scale)
    ((third0_read (k0_pay1 (F := Ideal) x0 x1) r (col h d) (Cert.ReluAttn.feat 0 (by omega) h d) rfl).trans (pay1_apply x0 x1 r _))

/-- The stored key block at (0, h, r, d): the same against weight row 512 + h * 64 + d. -/
theorem pay3_apply (x0 : Vec Ideal S1x512x512 .f32) (x1 : Vec Ideal S1536x512 .bf16) (h : Fin 8) (r : Fin 512) (d : Fin 64) :
    k0_pay3 (F := Ideal) x0 x1 (ix4 0 h r d)
      = ∑ k : Fin 512, x0 (ix3 0 r k) * x1 (ix2 (Cert.ReluAttn.feat 512 (by omega) h d) k) := by
  unfold k0_pay3
  refine (heads_read _ h r d).trans ?_
  exact (third1_read (k0_pay1 (F := Ideal) x0 x1) r (col h d) (Cert.ReluAttn.feat 512 (by omega) h d) rfl).trans (pay1_apply x0 x1 r _)

/-- The stored value block at (0, h, r, d): the same against weight row 1024 + h * 64 + d. -/
theorem pay4_apply (x0 : Vec Ideal S1x512x512 .f32) (x1 : Vec Ideal S1536x512 .bf16) (h : Fin 8) (r : Fin 512) (d : Fin 64) :
    k0_pay4 (F := Ideal) x0 x1 (ix4 0 h r d)
      = ∑ k : Fin 512, x0 (ix3 0 r k) * x1 (ix2 (Cert.ReluAttn.feat 1024 (by omega) h d) k) := by
  unfold k0_pay4
  refine (heads_read _ h r d).trans ?_
  exact (third2_read (k0_pay1 (F := Ideal) x0 x1) r (col h d) (Cert.ReluAttn.feat 1024 (by omega) h d) rfl).trans (pay1_apply x0 x1 r _)

/-! ## What a grid point reads and writes

Point t of the (2, 8) grid has batch b and row tile n. Its input block is rows [512 n, 512 n + 512) of batch b of x,
the weight block is the whole weight, and each output block is rows [512 n, 512 n + 512) of every head of batch b.
The relations between the printed index maps are decided once over the sixteen points. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The input block moves with the query block (batch with batch, row tile with row tile), the weight block never
    moves, and the query block's index is (b, 0, n, 0) with b ≤ 1 and n ≤ 7. -/
theorem idx_facts_q : ∀ t : Fin cfg0.N,
    win0_0.index t (0 : Fin 3) = win0_2.index t (0 : Fin 4) ∧ win0_0.index t (1 : Fin 3) = win0_2.index t (2 : Fin 4)
    ∧ win0_0.index t (2 : Fin 3) = 0
    ∧ win0_1.index t (0 : Fin 2) = 0 ∧ win0_1.index t (1 : Fin 2) = 0
    ∧ win0_2.index t (0 : Fin 4) ≤ 1 ∧ win0_2.index t (1 : Fin 4) = 0
    ∧ win0_2.index t (2 : Fin 4) ≤ 7 ∧ win0_2.index t (3 : Fin 4) = 0 :=
  (by decide +kernel : ∀ t : Fin grid0.N, _)

/-- Entry (0, r, k) of the input block at point t is x at (b, 512 n + r, k). -/
theorem xblk_read (c : Dev nD) (t : Fin cfg0.N) (r k : Fin 512) (bb : Fin 2) (nn : Fin 4096)
    (hb : bb.val = win0_0.index t (0 : Fin 3)) (hn : nn.val = win0_0.index t (1 : Fin 3) * 512 + r.val)
    (h2 : win0_0.index t (2 : Fin 3) = 0) :
    (iblk0 V c 0 t : Vec Ideal S1x512x512 .f32) (ix3 0 r k) = (V c main_arg0 : S2x4096x512.Idx → EReal) (ix3 bb nn k) := by
  unfold iblk0
  rw [View.read_apply]
  show V c main_arg0 _ = V c main_arg0 _
  congr 1
  funext a
  apply Fin.ext
  match a with
  | ⟨0, _⟩ => show win0_0.index t (0 : Fin 3) * 1 + 1 * 0 = bb.val; omega
  | ⟨1, _⟩ => show win0_0.index t (1 : Fin 3) * 512 + 1 * r.val = nn.val; omega
  | ⟨2, _⟩ => show win0_0.index t (2 : Fin 3) * 512 + 1 * k.val = k.val; omega

/-- The weight block at any point is the whole weight. -/
theorem wblk_read (c : Dev nD) (t : Fin cfg0.N) (e : Fin 1536) (k : Fin 512)
    (h0 : win0_1.index t (0 : Fin 2) = 0) (h1 : win0_1.index t (1 : Fin 2) = 0) :
    (iblk0 V c 1 t : Vec Ideal S1536x512 .bf16) (ix2 e k) = (V c main_v0 : S1536x512.Idx → EReal) (ix2 e k) := by
  unfold iblk0
  rw [View.read_apply]
  show V c main_v0 _ = V c main_v0 _
  congr 1
  funext a
  apply Fin.ext
  match a with
  | ⟨0, _⟩ => show win0_1.index t (0 : Fin 2) * 1536 + 1 * e.val = e.val; omega
  | ⟨1, _⟩ => show win0_1.index t (1 : Fin 2) * 512 + 1 * k.val = k.val; omega

/-! ## A stored block is the block of the specification's array -/

/-- With the input block's row r equal to row nn of batch bb of x, and the weight block the weight, the stored
    query at (0, h, r, d) is the specification's query at (bb, h, nn, d). -/
theorem q_entry (x : Cert.ReluAttn.SX.Idx → EReal) (w : Cert.ReluAttn.SWqkv.Idx → EReal)
    (x0 : Vec Ideal S1x512x512 .f32) (x1 : Vec Ideal S1536x512 .bf16)
    (bb : Fin 2) (nn : Fin 4096) (h : Fin 8) (r : Fin 512) (d : Fin 64)
    (hx0 : ∀ k : Fin 512, x0 (ix3 0 r k) = x (ix3 bb nn k))
    (hx1 : ∀ (e : Fin 1536) (k : Fin 512), x1 (ix2 e k) = w (ix2 e k)) :
    k0_pay2 (F := Ideal) x0 x1 (ix4 0 h r d) = Cert.ReluAttn.qArr x w (ix4 bb h nn d) := by
  rw [pay2_apply]
  show _ = (∑ k : Fin 512, x (ix3 bb nn k) * w (ix2 (Cert.ReluAttn.feat 0 (by omega) h d) k)) * Cert.ReluAttn.scale
  exact congrArg (· * Cert.ReluAttn.scale) (Finset.sum_congr rfl fun k _ => by rw [hx0 k, hx1])

theorem k_entry (x : Cert.ReluAttn.SX.Idx → EReal) (w : Cert.ReluAttn.SWqkv.Idx → EReal)
    (x0 : Vec Ideal S1x512x512 .f32) (x1 : Vec Ideal S1536x512 .bf16)
    (bb : Fin 2) (nn : Fin 4096) (h : Fin 8) (r : Fin 512) (d : Fin 64)
    (hx0 : ∀ k : Fin 512, x0 (ix3 0 r k) = x (ix3 bb nn k))
    (hx1 : ∀ (e : Fin 1536) (k : Fin 512), x1 (ix2 e k) = w (ix2 e k)) :
    k0_pay3 (F := Ideal) x0 x1 (ix4 0 h r d) = Cert.ReluAttn.kArr x w (ix4 bb h nn d) := by
  rw [pay3_apply]
  show _ = ∑ k : Fin 512, x (ix3 bb nn k) * w (ix2 (Cert.ReluAttn.feat 512 (by omega) h d) k)
  exact Finset.sum_congr rfl fun k _ => by rw [hx0 k, hx1]

theorem v_entry (x : Cert.ReluAttn.SX.Idx → EReal) (w : Cert.ReluAttn.SWqkv.Idx → EReal)
    (x0 : Vec Ideal S1x512x512 .f32) (x1 : Vec Ideal S1536x512 .bf16)
    (bb : Fin 2) (nn : Fin 4096) (h : Fin 8) (r : Fin 512) (d : Fin 64)
    (hx0 : ∀ k : Fin 512, x0 (ix3 0 r k) = x (ix3 bb nn k))
    (hx1 : ∀ (e : Fin 1536) (k : Fin 512), x1 (ix2 e k) = w (ix2 e k)) :
    k0_pay4 (F := Ideal) x0 x1 (ix4 0 h r d) = Cert.ReluAttn.vArr x w (ix4 bb h nn d) := by
  rw [pay4_apply]
  show _ = ∑ k : Fin 512, x (ix3 bb nn k) * w (ix2 (Cert.ReluAttn.feat 1024 (by omega) h d) k)
  exact Finset.sum_congr rfl fun k _ => by rw [hx0 k, hx1]

/-- An index of a [1, 8, 512, 64] block by its coordinates. -/
theorem blk_idx (j : S1x8x512x64.Idx) : ∃ (h : Fin 8) (r : Fin 512) (d : Fin 64), j = ix4 0 h r d :=
  ⟨j 1, j 2, j 3, funext fun a => by
    match a with
    | ⟨0, _⟩ => exact Fin.ext (by have : (j 0).val < 1 := (j 0).isLt; show (j 0).val = 0; omega)
    | ⟨1, _⟩ => rfl
    | ⟨2, _⟩ => rfl
    | ⟨3, _⟩ => rfl⟩

/-- The query block stored at point t, at block index j lying under array index i. -/
theorem q_point_entry (c : Dev nD) (t : Fin cfg0.N) (j : S1x8x512x64.Idx) (i : S2x8x4096x64.Idx)
    (h0 : (i 0).val = win0_2.index t (0 : Fin 4) * 1 + 1 * (j 0).val)
    (h1 : (i 1).val = win0_2.index t (1 : Fin 4) * 8 + 1 * (j 1).val)
    (h2 : (i 2).val = win0_2.index t (2 : Fin 4) * 512 + 1 * (j 2).val)
    (h3 : (i 3).val = win0_2.index t (3 : Fin 4) * 64 + 1 * (j 3).val) :
    k0_pay2 (F := Ideal) (iblk0 V c 0 t) (iblk0 V c 1 t) j = Cert.ReluAttn.qArr (V c main_arg0) (V c main_v0) i := by
  obtain ⟨e0, e1, e2, e3, e4, e5, e6, e7, e8⟩ := idx_facts_q t
  obtain ⟨h, r, d, rfl⟩ := blk_idx j
  obtain ⟨bb, hh, nn, dd, rfl⟩ : ∃ (bb : Fin 2) (hh : Fin 8) (nn : Fin 4096) (dd : Fin 64), i = ix4 bb hh nn dd :=
    ⟨i 0, i 1, i 2, i 3, eq_ix4 i⟩
  have g0 : bb.val = win0_2.index t (0 : Fin 4) * 1 + 1 * 0 := h0
  have g1 : hh.val = win0_2.index t (1 : Fin 4) * 8 + 1 * h.val := h1
  have g2 : nn.val = win0_2.index t (2 : Fin 4) * 512 + 1 * r.val := h2
  have g3 : dd.val = win0_2.index t (3 : Fin 4) * 64 + 1 * d.val := h3
  obtain rfl : hh = h := Fin.ext (by omega)
  obtain rfl : dd = d := Fin.ext (by omega)
  exact q_entry (V c main_arg0) (V c main_v0) (iblk0 V c 0 t) (iblk0 V c 1 t) bb nn hh r dd
    (fun k => xblk_read V c t r k bb nn (by omega) (by omega) e2) (fun e k => wblk_read V c t e k e3 e4)

/-- WHAT POINT t WRITES BACK to the query array is block t of the specification's query array. -/
theorem flushed_q (c : Dev nD) (t : Fin cfg0.N) :
    (dat0 (F := Ideal) V c).flushed 2 t
      = ((cfg0.win 2).blk t).view.read (Elt Ideal) (Cert.ReluAttn.qArr (V c main_arg0) (V c main_v0)) := by
  show (cfg0.win 2).cut (grid0.coords t) ((dat0 V c).after 2 t) = _
  rw [after0_2]
  unfold out0_2
  rw [View.canon_unit_zero hz4]
  simp only [View.ld_unit_zero (S := S1x512x512) hz3, View.ld_unit_zero (S := S1536x512) hz2]
  funext j
  exact q_point_entry V c t j (((cfg0.win 2).blk t).view.emb j) rfl rfl rfl rfl

/-! ## The blocks fill the array

Array index (b, h, n, d) lies in the block of the point whose index is (b, 0, n / 512, 0); every such index is some
point's. -/

theorem mem_blk_q (t : Fin cfg0.N) (i : S2x8x4096x64.Idx) :
    i ∈ ((cfg0.win 2).blk t).view.set ↔ ∀ a : Fin 4, win0_2.index t a * S1x8x512x64.size a ≤ (i a).val ∧ (i a).val < win0_2.index t a * S1x8x512x64.size a + S1x8x512x64.size a := by
  show i ∈ ((View.whole main_v2_0).slice (win0_2.rect t)).set ↔ _
  rw [View.set_slice_whole, Rect.mem_set_unit]
  exact Iff.rfl

/-- Every (batch, row tile) is some point's. -/
theorem idx_onto_q : ∀ (q0 : Fin 2) (q2 : Fin 8), ∃ t : Fin cfg0.N, win0_2.index t = ![q0.val, 0, q2.val, 0] :=
  (by decide +kernel : ∀ (q0 : Fin 2) (q2 : Fin 8), ∃ t : Fin grid0.N, win0_2.index t = ![q0.val, 0, q2.val, 0])

theorem cover_q (i : S2x8x4096x64.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto_q ⟨(i 0).val, hi0⟩ ⟨(i 2).val / 512, by omega⟩
  have q0 : win0_2.index t (0 : Fin 4) = (i 0).val := congrFun ht 0
  have q1 : win0_2.index t (1 : Fin 4) = 0 := congrFun ht 1
  have q2 : win0_2.index t (2 : Fin 4) = (i 2).val / 512 := congrFun ht 2
  have q3 : win0_2.index t (3 : Fin 4) = 0 := congrFun ht 3
  refine ⟨t, flush0_2 t, ?_⟩
  rw [mem_blk_q]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 512 ≤ (i 2).val ∧ (i 2).val < win0_2.index t (2 : Fin 4) * 512 + 512; omega
  | ⟨3, _⟩ => show win0_2.index t (3 : Fin 4) * 64 ≤ (i 3).val ∧ (i 3).val < win0_2.index t (3 : Fin 4) * 64 + 64; omega

theorem final_q (c : Dev nD) :
    (dat0 (F := Ideal) V c).arrAt 2 cfg0.N = Cert.ReluAttn.qArr (V c main_arg0) (V c main_v0) :=
  (dat0 (F := Ideal) V c).arrAt_eq_of_cover 2 (Cert.ReluAttn.qArr (V c main_arg0) (V c main_v0))
    (fun t _ => flushed_q V c t) cover_q

/-! ## The key and value arrays: the same road through windows 3 and 4

Their blocks move exactly as the query's; only the third of the product (and the absent scale) differs. -/

theorem idx_facts_k : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_3.index t (0 : Fin 4) ≤ 1 ∧ win0_3.index t (1 : Fin 4) = 0
    ∧ win0_3.index t (2 : Fin 4) ≤ 7 ∧ win0_3.index t (3 : Fin 4) = 0 :=
  (by decide +kernel : ∀ t : Fin grid0.N, _)

theorem idx_facts_v : ∀ t : Fin cfg0.N,
    win0_0.index t (0 : Fin 3) = win0_4.index t (0 : Fin 4) ∧ win0_0.index t (1 : Fin 3) = win0_4.index t (2 : Fin 4)
    ∧ win0_0.index t (2 : Fin 3) = 0
    ∧ win0_1.index t (0 : Fin 2) = 0 ∧ win0_1.index t (1 : Fin 2) = 0
    ∧ win0_4.index t (0 : Fin 4) ≤ 1 ∧ win0_4.index t (1 : Fin 4) = 0
    ∧ win0_4.index t (2 : Fin 4) ≤ 7 ∧ win0_4.index t (3 : Fin 4) = 0 :=
  (by decide +kernel : ∀ t : Fin grid0.N, _)

/-- The key block stored at point t, at block index j lying under array index i. -/
theorem k_point_entry (c : Dev nD) (t : Fin cfg0.N) (j : S1x8x512x64.Idx) (i : S2x8x4096x64.Idx)
    (h0 : (i 0).val = win0_3.index t (0 : Fin 4) * 1 + 1 * (j 0).val)
    (h1 : (i 1).val = win0_3.index t (1 : Fin 4) * 8 + 1 * (j 1).val)
    (h2 : (i 2).val = win0_3.index t (2 : Fin 4) * 512 + 1 * (j 2).val)
    (h3 : (i 3).val = win0_3.index t (3 : Fin 4) * 64 + 1 * (j 3).val) :
    k0_pay3 (F := Ideal) (iblk0 V c 0 t) (iblk0 V c 1 t) j = Cert.ReluAttn.kArr (V c main_arg0) (V c main_v0) i := by
  obtain ⟨e0, e1, e2, e3, e4, e5, e6, e7, e8⟩ := idx_facts_k t
  obtain ⟨h, r, d, rfl⟩ := blk_idx j
  obtain ⟨bb, hh, nn, dd, rfl⟩ : ∃ (bb : Fin 2) (hh : Fin 8) (nn : Fin 4096) (dd : Fin 64), i = ix4 bb hh nn dd :=
    ⟨i 0, i 1, i 2, i 3, eq_ix4 i⟩
  have g0 : bb.val = win0_3.index t (0 : Fin 4) * 1 + 1 * 0 := h0
  have g1 : hh.val = win0_3.index t (1 : Fin 4) * 8 + 1 * h.val := h1
  have g2 : nn.val = win0_3.index t (2 : Fin 4) * 512 + 1 * r.val := h2
  have g3 : dd.val = win0_3.index t (3 : Fin 4) * 64 + 1 * d.val := h3
  obtain rfl : hh = h := Fin.ext (by omega)
  obtain rfl : dd = d := Fin.ext (by omega)
  exact k_entry (V c main_arg0) (V c main_v0) (iblk0 V c 0 t) (iblk0 V c 1 t) bb nn hh r dd
    (fun k => xblk_read V c t r k bb nn (by omega) (by omega) e2) (fun e k => wblk_read V c t e k e3 e4)

/-- The value block stored at point t, at block index j lying under array index i. -/
theorem v_point_entry (c : Dev nD) (t : Fin cfg0.N) (j : S1x8x512x64.Idx) (i : S2x8x4096x64.Idx)
    (h0 : (i 0).val = win0_4.index t (0 : Fin 4) * 1 + 1 * (j 0).val)
    (h1 : (i 1).val = win0_4.index t (1 : Fin 4) * 8 + 1 * (j 1).val)
    (h2 : (i 2).val = win0_4.index t (2 : Fin 4) * 512 + 1 * (j 2).val)
    (h3 : (i 3).val = win0_4.index t (3 : Fin 4) * 64 + 1 * (j 3).val) :
    k0_pay4 (F := Ideal) (iblk0 V c 0 t) (iblk0 V c 1 t) j = Cert.ReluAttn.vArr (V c main_arg0) (V c main_v0) i := by
  obtain ⟨e0, e1, e2, e3, e4, e5, e6, e7, e8⟩ := idx_facts_v t
  obtain ⟨h, r, d, rfl⟩ := blk_idx j
  obtain ⟨bb, hh, nn, dd, rfl⟩ : ∃ (bb : Fin 2) (hh : Fin 8) (nn : Fin 4096) (dd : Fin 64), i = ix4 bb hh nn dd :=
    ⟨i 0, i 1, i 2, i 3, eq_ix4 i⟩
  have g0 : bb.val = win0_4.index t (0 : Fin 4) * 1 + 1 * 0 := h0
  have g1 : hh.val = win0_4.index t (1 : Fin 4) * 8 + 1 * h.val := h1
  have g2 : nn.val = win0_4.index t (2 : Fin 4) * 512 + 1 * r.val := h2
  have g3 : dd.val = win0_4.index t (3 : Fin 4) * 64 + 1 * d.val := h3
  obtain rfl : hh = h := Fin.ext (by omega)
  obtain rfl : dd = d := Fin.ext (by omega)
  exact v_entry (V c main_arg0) (V c main_v0) (iblk0 V c 0 t) (iblk0 V c 1 t) bb nn hh r dd
    (fun k => xblk_read V c t r k bb nn (by omega) (by omega) e2) (fun e k => wblk_read V c t e k e3 e4)

/-- WHAT POINT t WRITES BACK to the key array is block t of the specification's key array. -/
theorem flushed_k (c : Dev nD) (t : Fin cfg0.N) :
    (dat0 (F := Ideal) V c).flushed 3 t
      = ((cfg0.win 3).blk t).view.read (Elt Ideal) (Cert.ReluAttn.kArr (V c main_arg0) (V c main_v0)) := by
  show (cfg0.win 3).cut (grid0.coords t) ((dat0 V c).after 3 t) = _
  rw [after0_3]
  unfold out0_3
  rw [View.canon_unit_zero hz4]
  simp only [View.ld_unit_zero (S := S1x512x512) hz3, View.ld_unit_zero (S := S1536x512) hz2]
  funext j
  exact k_point_entry V c t j (((cfg0.win 3).blk t).view.emb j) rfl rfl rfl rfl

/-- WHAT POINT t WRITES BACK to the value array is block t of the specification's value array. -/
theorem flushed_v (c : Dev nD) (t : Fin cfg0.N) :
    (dat0 (F := Ideal) V c).flushed 4 t
      = ((cfg0.win 4).blk t).view.read (Elt Ideal) (Cert.ReluAttn.vArr (V c main_arg0) (V c main_v0)) := by
  show (cfg0.win 4).cut (grid0.coords t) ((dat0 V c).after 4 t) = _
  rw [after0_4]
  unfold out0_4
  rw [View.canon_unit_zero hz4]
  simp only [View.ld_unit_zero (S := S1x512x512) hz3, View.ld_unit_zero (S := S1536x512) hz2]
  funext j
  exact v_point_entry V c t j (((cfg0.win 4).blk t).view.emb j) rfl rfl rfl rfl

theorem mem_blk_k (t : Fin cfg0.N) (i : S2x8x4096x64.Idx) :
    i ∈ ((cfg0.win 3).blk t).view.set ↔ ∀ a : Fin 4, win0_3.index t a * S1x8x512x64.size a ≤ (i a).val ∧ (i a).val < win0_3.index t a * S1x8x512x64.size a + S1x8x512x64.size a := by
  show i ∈ ((View.whole main_v2_1).slice (win0_3.rect t)).set ↔ _
  rw [View.set_slice_whole, Rect.mem_set_unit]
  exact Iff.rfl

theorem mem_blk_v (t : Fin cfg0.N) (i : S2x8x4096x64.Idx) :
    i ∈ ((cfg0.win 4).blk t).view.set ↔ ∀ a : Fin 4, win0_4.index t a * S1x8x512x64.size a ≤ (i a).val ∧ (i a).val < win0_4.index t a * S1x8x512x64.size a + S1x8x512x64.size a := by
  show i ∈ ((View.whole main_v2_2).slice (win0_4.rect t)).set ↔ _
  rw [View.set_slice_whole, Rect.mem_set_unit]
  exact Iff.rfl

theorem idx_onto_k : ∀ (q0 : Fin 2) (q2 : Fin 8), ∃ t : Fin cfg0.N, win0_3.index t = ![q0.val, 0, q2.val, 0] :=
  (by decide +kernel : ∀ (q0 : Fin 2) (q2 : Fin 8), ∃ t : Fin grid0.N, win0_3.index t = ![q0.val, 0, q2.val, 0])

theorem idx_onto_v : ∀ (q0 : Fin 2) (q2 : Fin 8), ∃ t : Fin cfg0.N, win0_4.index t = ![q0.val, 0, q2.val, 0] :=
  (by decide +kernel : ∀ (q0 : Fin 2) (q2 : Fin 8), ∃ t : Fin grid0.N, win0_4.index t = ![q0.val, 0, q2.val, 0])

theorem cover_k (i : S2x8x4096x64.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto_k ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk_k]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

theorem cover_v (i : S2x8x4096x64.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := idx_onto_v ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk_v]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

theorem final_k (c : Dev nD) :
    (dat0 (F := Ideal) V c).arrAt 3 cfg0.N = Cert.ReluAttn.kArr (V c main_arg0) (V c main_v0) :=
  (dat0 (F := Ideal) V c).arrAt_eq_of_cover 3 (Cert.ReluAttn.kArr (V c main_arg0) (V c main_v0))
    (fun t _ => flushed_k V c t) cover_k

theorem final_v (c : Dev nD) :
    (dat0 (F := Ideal) V c).arrAt 4 cfg0.N = Cert.ReluAttn.vArr (V c main_arg0) (V c main_v0) :=
  (dat0 (F := Ideal) V c).arrAt_eq_of_cover 4 (Cert.ReluAttn.vArr (V c main_arg0) (V c main_v0))
    (fun t _ => flushed_v V c t) cover_v

end Cert.KernelIdeal.QkvLaunch

end
-- ==== Proof.AttnLaunch.lean ====
import proofs.«169202_j19542101197412_1_alg».proof.Proof.Gen.KernelIdeal.Frame
import proofs.«169202_j19542101197412_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnLaunch

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

-- the core's buffer contents when the launch is entered
variable (V : (c : Dev nD) → (b : Ref sig .tc) → Buf (Elt Ideal) ((c : Thread nD τ).loc b))

/-! ## The two products at an entry

The scores are the product of the query tile [512, 64] with the transposed key block [64, 4096], contracted over the
64 depths; the head's output is the product of the clipped scores [512, 4096] with the value block [4096, 64],
contracted over the 4096 positions. Each operand index of a product at an output entry has one coordinate from the
entry and one from the contraction. -/

theorem scores_lhs_0 (i : S512x4096.Idx) (q : dot_S512x64_S64x4096_S512x4096_1_0_0_1_n_n.contr.Idx) :
    (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide), dif_pos (show (0 : Fin S512x64.rank) ∈ dot_S512x64_S64x4096_S512x4096_1_0_0_1_n_n.lhsNonContracting by decide)]
  rfl
theorem scores_lhs_1 (i : S512x4096.Idx) (q : dot_S512x64_S64x4096_S512x4096_1_0_0_1_n_n.contr.Idx) :
    (dot_S512x64_S64x4096_S512x4096_1_0_0_1_n_n.lhsIdx i q 1).val = (q ⟨0, by decide⟩).val :=
  dot_S512x64_S64x4096_S512x4096_1_0_0_1_n_n.lhsIdx_val_of_single rfl i q
theorem scores_rhs_0 (i : S512x4096.Idx) (q : dot_S512x64_S64x4096_S512x4096_1_0_0_1_n_n.contr.Idx) :
    (dot_S512x64_S64x4096_S512x4096_1_0_0_1_n_n.rhsIdx i q 0).val = (q ⟨0, by decide⟩).val :=
  dot_S512x64_S64x4096_S512x4096_1_0_0_1_n_n.rhsIdx_val_of_single rfl i q
theorem scores_rhs_1 (i : S512x4096.Idx) (q : dot_S512x64_S64x4096_S512x4096_1_0_0_1_n_n.contr.Idx) :
    (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide), dif_pos (show (1 : Fin S64x4096.rank) ∈ dot_S512x64_S64x4096_S512x4096_1_0_0_1_n_n.rhsNonContracting by decide)]
  rfl

/-- The score product at entry (r, m): the sum over the depths of the left operand's row r against the right operand's column m. -/
theorem scores_apply (a : FVec Ideal S512x64 .bf16) (b : FVec Ideal S64x4096 .bf16) (r : Fin 512) (m : Fin 4096) :
    matmul dot_S512x64_S64x4096_S512x4096_1_0_0_1_n_n none a b (constant (F := Ideal) S512x4096 .f32 0x00000000#32) (ix2 r m)
      = ∑ dd : Fin 64, a (ix2 r dd) * b (ix2 dd m) := by
  simp only [matmul]
  rw [Ideal.matmul_constant_zero_apply, ← Equiv.sum_comp (ValueIdx.contrEquiv1 dot_S512x64_S64x4096_S512x4096_1_0_0_1_n_n 64 rfl rfl).symm]
  refine Finset.sum_congr rfl fun k _ => ?_
  have hk := ValueIdx.contrEquiv1_symm_val dot_S512x64_S64x4096_S512x4096_1_0_0_1_n_n 64 rfl rfl k
  have el : dot_S512x64_S64x4096_S512x4096_1_0_0_1_n_n.lhsIdx (ix2 r m) ((ValueIdx.contrEquiv1 dot_S512x64_S64x4096_S512x4096_1_0_0_1_n_n 64 rfl rfl).symm k) = ix2 r k := funext fun a => Fin.ext (by
    match a with
    | ⟨0, _⟩ => exact scores_lhs_0 _ _
    | ⟨1, _⟩ => exact (scores_lhs_1 _ _).trans hk)
  have er : dot_S512x64_S64x4096_S512x4096_1_0_0_1_n_n.rhsIdx (ix2 r m) ((ValueIdx.contrEquiv1 dot_S512x64_S64x4096_S512x4096_1_0_0_1_n_n 64 rfl rfl).symm k) = ix2 k m := funext fun a => Fin.ext (by
    match a with
    | ⟨0, _⟩ => exact (scores_rhs_0 _ _).trans hk
    | ⟨1, _⟩ => exact scores_rhs_1 _ _)
  rw [el, er]

theorem heads_lhs_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem heads_lhs_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem heads_rhs_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem heads_rhs_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The output product at entry (r, d): the sum over the positions of the left operand's row r against the right operand's column d. -/
theorem heads_apply (a : FVec Ideal S512x4096 .bf16) (b : FVec Ideal S4096x64 .bf16) (r : Fin 512) (d : Fin 64) :
    matmul dot_S512x4096_S4096x64_S512x64_1_0_0_1_n_n none a b (constant (F := Ideal) S512x64 .f32 0x00000000#32) (ix2 r d)
      = ∑ m : Fin 4096, a (ix2 r m) * b (ix2 m d) := by
  simp only [matmul]
  rw [Ideal.matmul_constant_zero_apply, ← Equiv.sum_comp (ValueIdx.contrEquiv1 dot_S512x4096_S4096x64_S512x64_1_0_0_1_n_n 4096 rfl rfl).symm]
  refine Finset.sum_congr rfl fun k _ => ?_
  have hk := ValueIdx.contrEquiv1_symm_val dot_S512x4096_S4096x64_S512x64_1_0_0_1_n_n 4096 rfl rfl k
  have el : dot_S512x4096_S4096x64_S512x64_1_0_0_1_n_n.lhsIdx (ix2 r d) ((ValueIdx.contrEquiv1 dot_S512x4096_S4096x64_S512x64_1_0_0_1_n_n 4096 rfl rfl).symm k) = ix2 r k := funext fun a => Fin.ext (by
    match a with
    | ⟨0, _⟩ => exact heads_lhs_0 _ _
    | ⟨1, _⟩ => exact (heads_lhs_1 _ _).trans hk)
  have er : dot_S512x4096_S4096x64_S512x64_1_0_0_1_n_n.rhsIdx (ix2 r d) ((ValueIdx.contrEquiv1 dot_S512x4096_S4096x64_S512x64_1_0_0_1_n_n 4096 rfl rfl).symm k) = ix2 k d := funext fun a => Fin.ext (by
    match a with
    | ⟨0, _⟩ => exact (heads_rhs_0 _ _).trans hk
    | ⟨1, _⟩ => exact heads_rhs_1 _ _)
  rw [el, er]

/-! ## The blocks' layout

A [1, 1, R, 64] block and its [R, 64] matrix hold the same values: entry (0, 0, r, d) of the block is entry (r, d) of
the matrix, both at row-major position r * 64 + d. The transposed key block reads entry (dd, m) at the key
block's (m, dd). -/

/-- The query tile as a matrix. -/
theorem tile_matrix_apply (x : Vec Ideal S1x1x512x64 .bf16) (h : S1x1x512x64.ShapeCasts S512x64) (r : Fin 512) (d : Fin 64) :
    shapeCast S512x64 x h (ix2 r d) = x (ix4 0 0 r d) := by
  refine shapeCast_apply x h (ix2 r d) (ix4 0 0 r d) ?_
  rw [Shape.rowMajor_val_four, Shape.rowMajor_val_two]
  show ((0 * 1 + 0) * 512 + r.val) * 64 + d.val = r.val * 64 + d.val
  omega

/-- A key or value block as a matrix. -/
theorem block_matrix_apply (x : Vec Ideal S1x1x4096x64 .bf16) (h : S1x1x4096x64.ShapeCasts S4096x64) (m : Fin 4096) (d : Fin 64) :
    shapeCast S4096x64 x h (ix2 m d) = x (ix4 0 0 m d) := by
  refine shapeCast_apply x h (ix2 m d) (ix4 0 0 m d) ?_
  rw [Shape.rowMajor_val_four, Shape.rowMajor_val_two]
  show ((0 * 1 + 0) * 4096 + m.val) * 64 + d.val = m.val * 64 + d.val
  omega

/-- The output matrix stored as a [1, 1, 512, 64] block. -/
theorem matrix_tile_apply (y : FVec Ideal S512x64 .bf16) (h : S512x64.ShapeCasts S1x1x512x64) (r : Fin 512) (d : Fin 64) :
    shapeCast S1x1x512x64 y h (ix4 0 0 r d) = y (ix2 r d) := by
  refine shapeCast_apply y h (ix4 0 0 r d) (ix2 r d) ?_
  rw [Shape.rowMajor_val_four, Shape.rowMajor_val_two]
  show r.val * 64 + d.val = ((0 * 1 + 0) * 512 + r.val) * 64 + d.val
  omega

/-- The transposed key matrix. -/
theorem keys_transposed_apply (k : FVec Ideal S4096x64 .bf16) (h : S4096x64.Transposes [1, 0] S64x4096) (dd : Fin 64) (m : Fin 4096) :
    transpose S64x4096 [1, 0] k h (ix2 dd m) = k (ix2 m dd) := by
  refine transpose_apply [1, 0] k h (ix2 dd m) (ix2 m dd) fun b => ?_
  match b with
  | ⟨0, _⟩ => rfl
  | ⟨1, _⟩ => rfl

/-! ## The body at an entry -/

/-- Entry (0, 0, r, d) of what the body stores: over the positions m, the score of the tile's row r against the key
    block's row m (the sum over the depths, clipped below at the float zero) times the value block's entry (m, d). -/
theorem body_apply (x0 : Vec Ideal S1x1x512x64 .bf16) (x1 x2 : Vec Ideal S1x1x4096x64 .bf16) (r : Fin 512) (d : Fin 64) :
    k1_pay1 (F := Ideal) x0 x1 x2 (ix4 0 0 r d)
      = ∑ m : Fin 4096, max (∑ dd : Fin 64, x0 (ix4 0 0 r dd) * x1 (ix4 0 0 m dd)) Cert.ReluAttn.floor0 * x2 (ix4 0 0 m d) := by
  unfold k1_pay1
  rw [matrix_tile_apply, truncf_apply, heads_apply]
  refine Finset.sum_congr rfl fun m _ => ?_
  rw [truncf_apply, maximumf_apply, broadcast_apply, scores_apply, block_matrix_apply]
  refine congrArg (fun s => max s _ * _) (Finset.sum_congr rfl fun dd _ => ?_)
  rw [tile_matrix_apply, keys_transposed_apply, block_matrix_apply]

/-! ## One grid point

The grid point with coordinates (b, h, qi) reads the query rows [qi * 512, qi * 512 + 512) of head h of batch b, and
all 4096 key and value rows of that head, and writes the same rows of the output. Entry (0, 0, r, d) of what it
writes is therefore the head's output at position n = qi * 512 + r and depth d. -/

/-- The body's entry from blocks that hold rows of the three arrays: row r of the tile is query position n, row m of
    the key and value blocks is position m. -/
theorem point_value (Q K W : Cert.ReluAttn.SHeads.Idx → EReal)
    (x0 : Vec Ideal S1x1x512x64 .bf16) (x1 x2 : Vec Ideal S1x1x4096x64 .bf16)
    (b : Fin 2) (h : Fin 8) (n : Fin 4096) (r : Fin 512) (d : Fin 64)
    (h0 : ∀ dd : Fin 64, x0 (ix4 0 0 r dd) = Q (ix4 b h n dd))
    (h1 : ∀ (m : Fin 4096) (dd : Fin 64), x1 (ix4 0 0 m dd) = K (ix4 b h m dd))
    (h2 : ∀ m : Fin 4096, x2 (ix4 0 0 m d) = W (ix4 b h m d)) :
    k1_pay1 (F := Ideal) x0 x1 x2 (ix4 0 0 r d) = Cert.ReluAttn.attnAt Q K W b h n d := by
  rw [body_apply]
  unfold Cert.ReluAttn.attnAt Cert.ReluAttn.scoreAt
  refine Finset.sum_congr rfl fun m _ => ?_
  rw [h2 m]
  refine congrArg (fun s => max s _ * _) (Finset.sum_congr rfl fun dd _ => ?_)
  rw [h0 dd, h1 m dd]

/-- An index of a [1, 1, 512, 64] block is (0, 0, r, d). -/
theorem tile_idx (j : S1x1x512x64.Idx) : ∃ (r : Fin 512) (d : Fin 64), j = ix4 0 0 r d :=
  ⟨j 2, j 3, funext fun a => by
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl
    | ⟨3, _⟩ => rfl⟩

theorem zero4 : (![0, 0, 0, 0] : Fin 4 → Nat) = fun _ => 0 := funext fun a => by fin_cases a <;> rfl

/-- The printed index maps, decided over the 128 grid points: the query window moves with the output window on every
    axis; the key and value windows share its batch and head and stay at block 0 along the positions; the output's
    block indices stay in their ranges. -/
theorem index_facts : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) ≤ 1 ∧ win1_3.index t (1 : Fin 4) ≤ 7 ∧ win1_3.index t (2 : Fin 4) ≤ 7 ∧ win1_3.index t (3 : Fin 4) = 0 :=
  (by decide +kernel : ∀ t : Fin grid1.N, _)

/-- Every (batch, head, query tile) is some grid point's output block. -/
theorem index_onto : ∀ (q0 : Fin 2) (q1 : Fin 8) (q2 : Fin 8), ∃ t : Fin cfg1.N, win1_3.index t = ![q0.val, q1.val, q2.val, 0] :=
  (by decide +kernel : ∀ (q0 : Fin 2) (q1 : Fin 8) (q2 : Fin 8), ∃ t : Fin grid1.N, win1_3.index t = ![q0.val, q1.val, q2.val, 0])

/-- What grid point t writes back is block t of the heads' outputs of the three arrays as the launch finds them. -/
theorem flushed_eq (c : Dev nD) (t : Fin cfg1.N) :
    (dat1 (F := Ideal) V c).flushed 3 t
      = ((cfg1.win 3).blk t).view.read (Elt Ideal) (Cert.ReluAttn.attnArr (V c main_v2_0) (V c main_v2_1) (V c main_v2_2)) := by
  show (cfg1.win 3).cut (grid1.coords t) ((dat1 (F := Ideal) V c).after 3 t) = _
  rw [after1_3]
  unfold out1_3
  rw [View.canon_unit_zero zero4]
  simp only [View.ld_unit_zero (S := S1x1x512x64) zero4, View.ld_unit_zero (S := S1x1x4096x64) zero4]
  obtain ⟨e00, e01, e02, e03, e10, e11, e12, e13, e20, e21, e22, e23, l0, l1, l2, e33⟩ := index_facts t
  funext j
  obtain ⟨r, d, rfl⟩ := tile_idx j
  have hr : r.val < 512 := r.isLt
  show k1_pay1 (F := Ideal) (iblk1 V c 0 t) (iblk1 V c 1 t) (iblk1 V c 2 t) (ix4 0 0 r d)
    = Cert.ReluAttn.attnArr (V c main_v2_0) (V c main_v2_1) (V c main_v2_2) (((cfg1.win 3).blk t).view.emb (ix4 0 0 r d))
  -- the entry's place in the array: batch and head are the block's, the position is 512 * tile + r
  have hE : ((cfg1.win 3).blk t).view.emb (ix4 0 0 r d)
      = ix4 (⟨win1_3.index t (0 : Fin 4), by omega⟩ : Fin 2) (⟨win1_3.index t (1 : Fin 4), by omega⟩ : Fin 8)
          (⟨win1_3.index t (2 : Fin 4) * 512 + r.val, by omega⟩ : Fin 4096) d := by
    funext a; apply Fin.ext
    match a with
    | ⟨0, _⟩ => show win1_3.index t (0 : Fin 4) * 1 + 1 * 0 = win1_3.index t (0 : Fin 4); omega
    | ⟨1, _⟩ => show win1_3.index t (1 : Fin 4) * 1 + 1 * 0 = win1_3.index t (1 : Fin 4); omega
    | ⟨2, _⟩ => show win1_3.index t (2 : Fin 4) * 512 + 1 * r.val = win1_3.index t (2 : Fin 4) * 512 + r.val; omega
    | ⟨3, _⟩ => show win1_3.index t (3 : Fin 4) * 64 + 1 * d.val = d.val; omega
  rw [hE]
  refine point_value _ _ _ _ _ _ _ _ _ r d ?_ ?_ ?_
  · -- the query tile's row r is query position 512 * tile + r
    intro dd
    show V c main_v2_0 (((cfg1.win 0).blk t).view.emb (ix4 0 0 r dd)) = _
    refine congrArg _ (funext fun a => Fin.ext ?_)
    match a with
    | ⟨0, _⟩ => show win1_0.index t (0 : Fin 4) * 1 + 1 * 0 = win1_3.index t (0 : Fin 4); omega
    | ⟨1, _⟩ => show win1_0.index t (1 : Fin 4) * 1 + 1 * 0 = win1_3.index t (1 : Fin 4); omega
    | ⟨2, _⟩ => show win1_0.index t (2 : Fin 4) * 512 + 1 * r.val = win1_3.index t (2 : Fin 4) * 512 + r.val; omega
    | ⟨3, _⟩ => show win1_0.index t (3 : Fin 4) * 64 + 1 * dd.val = dd.val; omega
  · -- the key block's row m is key position m
    intro m dd
    show V c main_v2_1 (((cfg1.win 1).blk t).view.emb (ix4 0 0 m dd)) = _
    refine congrArg _ (funext fun a => Fin.ext ?_)
    match a with
    | ⟨0, _⟩ => show win1_1.index t (0 : Fin 4) * 1 + 1 * 0 = win1_3.index t (0 : Fin 4); omega
    | ⟨1, _⟩ => show win1_1.index t (1 : Fin 4) * 1 + 1 * 0 = win1_3.index t (1 : Fin 4); omega
    | ⟨2, _⟩ => show win1_1.index t (2 : Fin 4) * 4096 + 1 * m.val = m.val; omega
    | ⟨3, _⟩ => show win1_1.index t (3 : Fin 4) * 64 + 1 * dd.val = dd.val; omega
  · -- the value block's row m is value position m
    intro m
    show V c main_v2_2 (((cfg1.win 2).blk t).view.emb (ix4 0 0 m d)) = _
    refine congrArg _ (funext fun a => Fin.ext ?_)
    match a with
    | ⟨0, _⟩ => show win1_2.index t (0 : Fin 4) * 1 + 1 * 0 = win1_3.index t (0 : Fin 4); omega
    | ⟨1, _⟩ => show win1_2.index t (1 : Fin 4) * 1 + 1 * 0 = win1_3.index t (1 : Fin 4); omega
    | ⟨2, _⟩ => show win1_2.index t (2 : Fin 4) * 4096 + 1 * m.val = m.val; omega
    | ⟨3, _⟩ => show win1_2.index t (3 : Fin 4) * 64 + 1 * d.val = d.val; omega

/-! ## From the blocks to the array -/

/-- An index of the output array is in grid point t's block iff each coordinate is in the block's range on its axis. -/
theorem mem_block (t : Fin cfg1.N) (i : S2x8x4096x64.Idx) :
    i ∈ ((cfg1.win 3).blk t).view.set ↔ ∀ a : Fin 4, win1_3.index t a * S1x1x512x64.size a ≤ (i a).val ∧ (i a).val < win1_3.index t a * S1x1x512x64.size a + S1x1x512x64.size a := by
  show i ∈ ((View.whole main_v3).slice (win1_3.rect t)).set ↔ _
  rw [View.set_slice_whole, Rect.mem_set_unit]
  exact Iff.rfl

/-- The output blocks tile the array: (b, h, n, d) is in the block of the point with coordinates (b, h, n / 512). -/
theorem covered (i : S2x8x4096x64.Idx) :
    ∃ t : Fin cfg1.N, (cfg1.win 3).flush t = true ∧ i ∈ ((cfg1.win 3).blk t).view.set := by
  have hi0 : (i 0).val < 2 := (i 0).isLt
  have hi1 : (i 1).val < 8 := (i 1).isLt
  have hi2 : (i 2).val < 4096 := (i 2).isLt
  have hi3 : (i 3).val < 64 := (i 3).isLt
  obtain ⟨t, ht⟩ := index_onto ⟨(i 0).val, hi0⟩ ⟨(i 1).val, hi1⟩ ⟨(i 2).val / 512, by omega⟩
  have q0 : win1_3.index t (0 : Fin 4) = (i 0).val := congrFun ht 0
  have q1 : win1_3.index t (1 : Fin 4) = (i 1).val := congrFun ht 1
  have q2 : win1_3.index t (2 : Fin 4) = (i 2).val / 512 := congrFun ht 2
  have q3 : win1_3.index t (3 : Fin 4) = 0 := congrFun ht 3
  refine ⟨t, flush1_3 t, ?_⟩
  rw [mem_block]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The output array after the launch: every entry is the head's output of the three arrays the launch was entered with. -/
theorem final_attn (c : Dev nD) :
    (dat1 (F := Ideal) V c).arrAt 3 cfg1.N = Cert.ReluAttn.attnArr (V c main_v2_0) (V c main_v2_1) (V c main_v2_2) :=
  (dat1 (F := Ideal) V c).arrAt_eq_of_cover 3 (Cert.ReluAttn.attnArr (V c main_v2_0) (V c main_v2_1) (V c main_v2_2))
    (fun t _ => flushed_eq V c t) covered

end Cert.KernelIdeal.AttnLaunch

end
-- ==== Proof.OutLaunch.lean ====
import proofs.«169202_j19542101197412_1_alg».proof.Proof.Gen.KernelIdeal.Frame
import proofs.«169202_j19542101197412_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.OutLaunch

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The product of the output projection at an entry

The launch multiplies a [512, 512] left operand (row r, merged feature e) by a [512, 512] right operand
(merged feature e, output feature o), contracting the left's axis 1 against the right's axis 0. -/

/-- On the left operand's free axis the operand index is the output's row. -/
theorem prod_lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- On the left operand's contracted axis it is the contraction's one coordinate. -/
theorem prod_lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- On the right operand's contracted axis it is the contraction's one coordinate. -/
theorem prod_rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- On the right operand's free axis the operand index is the output's column. -/
theorem prod_rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product into the zero accumulator, at row r and column o: the sum over the merged feature e of
    left (r, e) times right (e, o). -/
theorem prod_entry (a b : FVec Ideal S512x512 .bf16) (r o : Fin 512) :
    matmul dot_S512x512_S512x512_S512x512_1_0_0_1_n_n none a b (constant (F := Ideal) S512x512 .f32 0x00000000#32) (ix2 r o)
      = ∑ e : Fin 512, a (ix2 r e) * b (ix2 e o) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r o) ((contrEquiv1 dot_S512x512_S512x512_S512x512_1_0_0_1_n_n 512 rfl rfl).symm k) = ix2 r k := funext fun a => Fin.ext (by
    match a with
    | ⟨0, _⟩ => exact prod_lhs_0 _ _
    | ⟨1, _⟩ => exact (prod_lhs_1 _ _).trans hk)
  have er : dot_S512x512_S512x512_S512x512_1_0_0_1_n_n.rhsIdx (ix2 r o) ((contrEquiv1 dot_S512x512_S512x512_S512x512_1_0_0_1_n_n 512 rfl rfl).symm k) = ix2 k o := funext fun a => Fin.ext (by
    match a with
    | ⟨0, _⟩ => exact (prod_rhs_0 _ _).trans hk
    | ⟨1, _⟩ => exact prod_rhs_1 _ _)
  rw [el, er]

/-! ## The layouts around the product -/

/-- The merged heads: the block [1, 8, 512, 64] with its unit axis dropped, heads and rows exchanged, and the
    (head, depth) pair flattened. Row r, merged feature e = h * 64 + d reads the block at (0, h, r, d). -/
theorem merged_entry (x0 : Vec Ideal S1x8x512x64 .bf16) (r e : Fin 512) :
    shapeCast S512x512 (transpose S512x8x64 [1, 0, 2] (shapeCast S8x512x64 x0 shapeCasts_S1x8x512x64_S8x512x64) transposes_S8x512x64_p1_0_2_S512x8x64) shapeCasts_S512x8x64_S512x512 (ix2 r e)
      = x0 (ix4 0 (Cert.ReluAttn.headOf e) r (Cert.ReluAttn.depthOf e)) := by
  refine (shapeCast_apply _ _ (ix2 r e) (ix3 r (Cert.ReluAttn.headOf e) (Cert.ReluAttn.depthOf e)) ?_).trans ?_
  · rw [Shape.rowMajor_val_three, Shape.rowMajor_val_two]
    show (r.val * 8 + e.val / 64) * 64 + e.val % 64 = r.val * 512 + e.val
    omega
  refine (transpose_apply _ _ _ (ix3 r (Cert.ReluAttn.headOf e) (Cert.ReluAttn.depthOf e)) (ix3 (Cert.ReluAttn.headOf e) r (Cert.ReluAttn.depthOf e)) ?_).trans ?_
  · intro b
    match b with
    | ⟨0, _⟩ => rfl
    | ⟨1, _⟩ => rfl
    | ⟨2, _⟩ => rfl
  refine shapeCast_apply _ _ (ix3 (Cert.ReluAttn.headOf e) r (Cert.ReluAttn.depthOf e)) (ix4 0 (Cert.ReluAttn.headOf e) r (Cert.ReluAttn.depthOf e)) ?_
  rw [Shape.rowMajor_val_four, Shape.rowMajor_val_three]
  show (((0 : Fin 1).val * 8 + e.val / 64) * 512 + r.val) * 64 + e.val % 64 = (e.val / 64 * 512 + r.val) * 64 + e.val % 64
  simp

/-- The output weight, cast to its own shape and transposed: (e, o) reads the weight at (o, e). -/
theorem weightT_entry (x1 : Vec Ideal S512x512 .bf16) (e o : Fin 512) :
    transpose S512x512 [1, 0] (shapeCast S512x512 x1 shapeCasts_S512x512_S512x512) transposes_S512x512_p1_0_S512x512 (ix2 e o)
      = x1 (ix2 o e) := by
  rw [shapeCast_self]
  refine transpose_apply _ _ _ (ix2 e o) (ix2 o e) ?_
  intro b
  match b with
  | ⟨0, _⟩ => rfl
  | ⟨1, _⟩ => rfl

/-- The bias as a row [1, 512] repeated down the 512 rows: (r, o) reads the bias at o. -/
theorem biasRows_entry (x2 : Vec Ideal S512 .f32) (r o : Fin 512) :
    broadcastTo S512x512 (shapeCast S1x512 x2 shapeCasts_S512_S1x512) broadcasts_S1x512_S512x512 (ix2 r o)
      = x2 (ix1 o) := by
  refine (broadcastTo_apply _ _ (ix2 r o) (ix2 0 o) ?_).trans ?_
  · intro a
    match a with
    | ⟨0, _⟩ => rfl
    | ⟨1, _⟩ => rfl
  refine shapeCast_apply _ _ (ix2 0 o) (ix1 o) ?_
  rw [Shape.rowMajor_val_one, Shape.rowMajor_val_two]
  show o.val = (0 : Fin 1).val * 512 + o.val
  simp

/-- What the launch's body stores, at row r and output feature o of its [1, 512, 512] block: the merged heads
    of row r against row o of the output weight, plus the bias at o. -/
theorem payload_entry (x0 : Vec Ideal S1x8x512x64 .bf16) (x1 : Vec Ideal S512x512 .bf16) (x2 : Vec Ideal S512 .f32) (r o : Fin 512) :
    k2_pay1 (F := Ideal) x0 x1 x2 (ix3 0 r o)
      = (∑ e : Fin 512, x0 (ix4 0 (Cert.ReluAttn.headOf e) r (Cert.ReluAttn.depthOf e)) * x1 (ix2 o e)) + x2 (ix1 o) := by
  unfold k2_pay1
  refine (shapeCast_apply _ _ (ix3 0 r o) (ix2 r o) ?_).trans ?_
  · rw [Shape.rowMajor_val_two, Shape.rowMajor_val_three]
    show r.val * 512 + o.val = ((0 : Fin 1).val * 512 + r.val) * 512 + o.val
    simp
  refine (addf_apply _ _ (ix2 r o)).trans ?_
  refine congrArg₂ (· + ·) ?_ (biasRows_entry x2 r o)
  refine (prod_entry _ _ r o).trans ?_
  refine Finset.sum_congr rfl fun e _ => ?_
  exact congrArg₂ (· * ·) (merged_entry x0 r e) (weightT_entry x1 e o)

-- the core's buffer contents when the launch is entered
variable (V : (c : Dev nD) → (b : Ref sig .tc) → Buf (Elt Ideal) ((c : Thread nD τ).loc b))

/-! ## The blocks of a grid point

The grid is (batch b, row tile n) : 2 × 8. At a point the body sees rows [512 n, 512 n + 512) of batch b of the
attention output, over all heads and depths; the whole output weight; the whole bias; and writes rows
[512 n, 512 n + 512) of batch b of the result. A block's coordinate in its array is the block index times the
block size plus the coordinate inside the block. -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices at every grid point: the attention block follows the result block on the batch and row
    axes and is whole on heads and depths; weight and bias are whole; the result block is whole on the features. -/
theorem block_indices : ∀ t : Fin cfg2.N,
    win2_0.index t (0 : Fin 4) = win2_3.index t (0 : Fin 3)
    ∧ win2_0.index t (1 : Fin 4) = 0
    ∧ win2_0.index t (2 : Fin 4) = win2_3.index t (1 : Fin 3)
    ∧ win2_0.index t (3 : Fin 4) = 0
    ∧ win2_1.index t (0 : Fin 2) = 0
    ∧ win2_1.index t (1 : Fin 2) = 0
    ∧ win2_2.index t (0 : Fin 1) = 0
    ∧ win2_3.index t (0 : Fin 3) ≤ 1
    ∧ win2_3.index t (1 : Fin 3) ≤ 7
    ∧ win2_3.index t (2 : Fin 3) = 0 :=
  (by decide +kernel : ∀ t : Fin grid2.N, _)

/-- Every (batch, row tile) is some point's result block. -/
theorem block_onto : ∀ (q0 : Fin 2) (q1 : Fin 8), ∃ t : Fin cfg2.N, win2_3.index t = ![q0.val, q1.val, 0] :=
  (by decide +kernel : ∀ (q0 : Fin 2) (q1 : Fin 8), ∃ t : Fin grid2.N, win2_3.index t = ![q0.val, q1.val, 0])

/-- The attention block at (0, h, r, d) is the attention output at (b, h, n, d), where b is the point's batch
    and n = 512 × (the point's row tile) + r. -/
theorem attn_block_entry (c : Dev nD) (t : Fin cfg2.N) (h : Fin 8) (r : Fin 512) (d : Fin 64) (b : Fin 2) (n : Fin 4096)
    (hb : b.val = win2_3.index t (0 : Fin 3)) (hn : n.val = win2_3.index t (1 : Fin 3) * 512 + r.val) :
    (iblk2 V c 0 t : Vec Ideal S1x8x512x64 .bf16) (ix4 0 h r d) = (V c main_v3 : S2x8x4096x64.Idx → EReal) (ix4 b h n d) := by
  obtain ⟨e0, e1, e2, e3, -⟩ := block_indices t
  unfold iblk2
  rw [View.read_apply]
  show V c main_v3 _ = V c main_v3 _
  congr 1
  funext a
  apply Fin.ext
  match a with
  | ⟨0, _⟩ => show win2_0.index t (0 : Fin 4) * 1 + 1 * (0 : Fin 1).val = b.val; rw [e0, hb]; simp
  | ⟨1, _⟩ => show win2_0.index t (1 : Fin 4) * 8 + 1 * h.val = h.val; rw [e1]; omega
  | ⟨2, _⟩ => show win2_0.index t (2 : Fin 4) * 512 + 1 * r.val = n.val; rw [e2, hn]; omega
  | ⟨3, _⟩ => show win2_0.index t (3 : Fin 4) * 64 + 1 * d.val = d.val; rw [e3]; omega

/-- The weight block is the whole output weight. -/
theorem weight_block_entry (c : Dev nD) (t : Fin cfg2.N) (o e : Fin 512) :
    (iblk2 V c 1 t : Vec Ideal S512x512 .bf16) (ix2 o e) = (V c main_v1 : S512x512.Idx → EReal) (ix2 o e) := by
  obtain ⟨-, -, -, -, e4, e5, -⟩ := block_indices t
  unfold iblk2
  rw [View.read_apply]
  show V c main_v1 _ = V c main_v1 _
  congr 1
  funext a
  apply Fin.ext
  match a with
  | ⟨0, _⟩ => show win2_1.index t (0 : Fin 2) * 512 + 1 * o.val = o.val; rw [e4]; omega
  | ⟨1, _⟩ => show win2_1.index t (1 : Fin 2) * 512 + 1 * e.val = e.val; rw [e5]; omega

/-- The bias block is the whole bias. -/
theorem bias_block_entry (c : Dev nD) (t : Fin cfg2.N) (o : Fin 512) :
    (iblk2 V c 2 t : Vec Ideal S512 .f32) (ix1 o) = (V c main_arg3 : S512.Idx → EReal) (ix1 o) := by
  obtain ⟨-, -, -, -, -, -, e6, -⟩ := block_indices t
  unfold iblk2
  rw [View.read_apply]
  show V c main_arg3 _ = V c main_arg3 _
  congr 1
  funext a
  apply Fin.ext
  match a with
  | ⟨0, _⟩ => show win2_2.index t (0 : Fin 1) * 512 + 1 * o.val = o.val; rw [e6]; omega

/-- What a point's body stores at (0, r, o) is the output projection of the arrays at (b, n, o), b the point's
    batch and n = 512 × (the point's row tile) + r. -/
theorem point_entry (c : Dev nD) (t : Fin cfg2.N) (r o : Fin 512) (b : Fin 2) (n : Fin 4096)
    (hb : b.val = win2_3.index t (0 : Fin 3)) (hn : n.val = win2_3.index t (1 : Fin 3) * 512 + r.val) :
    k2_pay1 (F := Ideal) (iblk2 V c 0 t) (iblk2 V c 1 t) (iblk2 V c 2 t) (ix3 0 r o)
      = Cert.ReluAttn.outAt (V c main_v3) (V c main_v1) (V c main_arg3) b n o := by
  refine (payload_entry (iblk2 V c 0 t) (iblk2 V c 1 t) (iblk2 V c 2 t) r o).trans ?_
  unfold Cert.ReluAttn.outAt
  exact congrArg₂ (· + ·)
    (Finset.sum_congr rfl fun e _ => congrArg₂ (· * ·)
      (attn_block_entry V c t (Cert.ReluAttn.headOf e) r (Cert.ReluAttn.depthOf e) b n hb hn)
      (weight_block_entry V c t o e))
    (bias_block_entry V c t o)

/-- What point t writes back is block t of the output projection of the three arrays. -/
theorem flushed_eq (c : Dev nD) (t : Fin cfg2.N) :
    (dat2 (F := Ideal) V c).flushed 3 t
      = ((cfg2.win 3).blk t).view.read (Elt Ideal) (Cert.ReluAttn.outArr (V c main_v3) (V c main_v1) (V c main_arg3)) := by
  show (cfg2.win 3).cut (grid2.coords t) ((dat2 (F := Ideal) V c).after 3 t) = _
  rw [after2_3]
  unfold out2_3
  rw [View.canon_unit_zero zeros3]
  simp only [View.ld_unit_zero (S := S1x8x512x64) zeros4, View.ld_unit_zero (S := S512x512) zeros2, View.ld_unit_zero (S := S512) zeros1]
  obtain ⟨-, -, -, -, -, -, -, l0, l1, e9⟩ := block_indices t
  funext j
  obtain ⟨p, r, o, rfl⟩ : ∃ (p : Fin 1) (r o : Fin 512), j = ix3 p r o := ⟨j 0, j 1, j 2, eq_ix3 j⟩
  obtain rfl : p = 0 := Subsingleton.elim _ _
  refine (point_entry V c t r o ⟨win2_3.index t (0 : Fin 3), by omega⟩ ⟨win2_3.index t (1 : Fin 3) * 512 + r.val, by have := r.isLt; omega⟩ rfl rfl).trans ?_
  have hi : ((cfg2.win 3).blk t).view.emb (ix3 0 r o)
      = (ix3 (⟨win2_3.index t (0 : Fin 3), by omega⟩ : Fin 2) (⟨win2_3.index t (1 : Fin 3) * 512 + r.val, by have := r.isLt; omega⟩ : Fin 4096) o : S2x4096x512.Idx) :=
    funext fun a => Fin.ext (by
      match a with
      | ⟨0, _⟩ => show win2_3.index t (0 : Fin 3) * 1 + 1 * (0 : Fin 1).val = win2_3.index t (0 : Fin 3); simp
      | ⟨1, _⟩ => show win2_3.index t (1 : Fin 3) * 512 + 1 * r.val = win2_3.index t (1 : Fin 3) * 512 + r.val; omega
      | ⟨2, _⟩ => show win2_3.index t (2 : Fin 3) * 512 + 1 * o.val = o.val; rw [e9]; omega)
  show _ = Cert.ReluAttn.outArr (V c main_v3) (V c main_v1) (V c main_arg3) (((cfg2.win 3).blk t).view.emb (ix3 0 r o))
  rw [hi]
  rfl

/-! ## From the blocks to the array

The result blocks [1, 512, 512] at block index (b, n, 0) tile the result [2, 4096, 512]: the point with batch
b and row tile n / 512 covers (b, n, ·). -/

/-- An index of the result lies in point t's block iff each coordinate lies in the block's range on its axis. -/
theorem mem_block (t : Fin cfg2.N) (i : S2x4096x512.Idx) :
    i ∈ ((cfg2.win 3).blk t).view.set
      ↔ ∀ a : Fin 3, win2_3.index t a * S1x512x512.size a ≤ (i a).val ∧ (i a).val < win2_3.index t a * S1x512x512.size a + S1x512x512.size a := by
  show i ∈ ((View.whole main_v4).slice (win2_3.rect t)).set ↔ _
  rw [View.set_slice_whole, Rect.mem_set_unit]
  exact Iff.rfl

/-- Every index of the result is in some point's block, and every point writes its block back. -/
theorem covered (i : S2x4096x512.Idx) :
    ∃ t : Fin cfg2.N, (cfg2.win 3).flush t = true ∧ i ∈ ((cfg2.win 3).blk t).view.set := by
  have hi0 : (i 0).val < 2 := (i 0).isLt
  have hi1 : (i 1).val < 4096 := (i 1).isLt
  have hi2 : (i 2).val < 512 := (i 2).isLt
  obtain ⟨t, ht⟩ := block_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_block]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 512 ≤ (i 2).val ∧ (i 2).val < win2_3.index t (2 : Fin 3) * 512 + 512; omega

/-- After the launch the result array holds the output projection of the attention output, the output weight
    and the bias as the launch found them. -/
theorem final_out (c : Dev nD) :
    (dat2 (F := Ideal) V c).arrAt 3 cfg2.N = Cert.ReluAttn.outArr (V c main_v3) (V c main_v1) (V c main_arg3) :=
  (dat2 (F := Ideal) V c).arrAt_eq_of_cover 3 (Cert.ReluAttn.outArr (V c main_v3) (V c main_v1) (V c main_arg3))
    (fun t _ => flushed_eq V c t) covered

end Cert.KernelIdeal.OutLaunch

end
-- ==== Proof.KernelValue.lean ====
/-
  The three launches composed. The contents at each boundary of the program are a fold: the two host casts of the
  weights (the identity on extended reals), then each launch's arrays at what its write-backs leave and every other
  buffer as it was. Reading the result's buffer back through the fold: the last launch leaves the output projection
  of the attention array, of the cast output weight and of the bias; the attention array is what the middle launch left,
  a function of the three head-major arrays the first launch left; those are functions of x and of the cast
  projection weight. Every other buffer read on the way was written by no launch in between, so it is still what the
  host casts, or the caller, put there.
-/
import proofs.«169202_j19542101197412_1_alg».proof.Proof.Gen.KernelIdeal.Frame
import proofs.«169202_j19542101197412_1_alg».proof.Proof.Spec
import proofs.«169202_j19542101197412_1_alg».proof.Proof.QkvLaunch
import proofs.«169202_j19542101197412_1_alg».proof.Proof.AttnLaunch
import proofs.«169202_j19542101197412_1_alg».proof.Proof.OutLaunch
import Idealize.ShloMosaic.Lib.StableHlo.Run
import Idealize.ShloMosaic.Lib.ValueIdx

set_option maxRecDepth 16384

noncomputable section

namespace Cert.KernelIdeal.Composed

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- No host operation writes x: the first launch finds it as launched. -/
theorem entry_x (c : Dev nD) : V1 (F := Ideal) m ρ c main_arg0 = m ((c.tc : Thread nD τ).loc main_arg0) := by
  show StableHlo.after hostOps0 (W0 m ρ c) (Proc.devRef .tc main_arg0) = _
  after_results

/-- The projection weight the first launch finds is the caller's, cast to the narrower float: the same extended reals. -/
theorem entry_wqkv (c : Dev nD) : V1 (F := Ideal) m ρ c main_v0 = m ((c.tc : Thread nD τ).loc main_arg1) := by
  show StableHlo.after hostOps0 (W0 m ρ c) (Proc.devRef .tc main_v0) = _
  after_results
  rfl

/-- The cast output weight after the host stretch. -/
theorem entry_wout (c : Dev nD) : W1 (F := Ideal) m ρ c (Proc.devRef .tc main_v1) = m ((c.tc : Thread nD τ).loc main_arg2) := by
  show StableHlo.after hostOps0 (W0 m ρ c) (Proc.devRef .tc main_v1) = _
  after_results
  rfl

/-- The bias after the host stretch. -/
theorem entry_bias (c : Dev nD) : W1 (F := Ideal) m ρ c (Proc.devRef .tc main_arg3) = m ((c.tc : Thread nD τ).loc main_arg3) := by
  show StableHlo.after hostOps0 (W0 m ρ c) (Proc.devRef .tc main_arg3) = _
  after_results

/-- The first two launches write neither the cast output weight nor the bias. -/
theorem third_wout (c : Dev nD) : V3 (F := Ideal) m ρ c main_v1 = m ((c.tc : Thread nD τ).loc main_arg2) :=
  ((W3_of_ne m ρ c main_v1 (by decide)).trans (W2_of_ne m ρ c main_v1 (by decide))).trans (entry_wout m ρ c)
theorem third_bias (c : Dev nD) : V3 (F := Ideal) m ρ c main_arg3 = m ((c.tc : Thread nD τ).loc main_arg3) :=
  ((W3_of_ne m ρ c main_arg3 (by decide)).trans (W2_of_ne m ρ c main_arg3 (by decide))).trans (entry_bias m ρ c)

/-- What the first launch leaves: the three head-major arrays of x and the projection weight. -/
theorem second_q (c : Dev nD) : V2 (F := Ideal) m ρ c main_v2_0
    = Cert.ReluAttn.qArr (m ((c.tc : Thread nD τ).loc main_arg0)) (m ((c.tc : Thread nD τ).loc main_arg1)) := by
  refine ((W2_arr m ρ c 2).trans (QkvLaunch.final_q (V1 m ρ) c)).trans ?_
  rw [entry_x, entry_wqkv]
theorem second_k (c : Dev nD) : V2 (F := Ideal) m ρ c main_v2_1
    = Cert.ReluAttn.kArr (m ((c.tc : Thread nD τ).loc main_arg0)) (m ((c.tc : Thread nD τ).loc main_arg1)) := by
  refine ((W2_arr m ρ c 3).trans (QkvLaunch.final_k (V1 m ρ) c)).trans ?_
  rw [entry_x, entry_wqkv]
theorem second_v (c : Dev nD) : V2 (F := Ideal) m ρ c main_v2_2
    = Cert.ReluAttn.vArr (m ((c.tc : Thread nD τ).loc main_arg0)) (m ((c.tc : Thread nD τ).loc main_arg1)) := by
  refine ((W2_arr m ρ c 4).trans (QkvLaunch.final_v (V1 m ρ) c)).trans ?_
  rw [entry_x, entry_wqkv]

/-- What the middle launch leaves: the attention array of those three. -/
theorem third_attn (c : Dev nD) : V3 (F := Ideal) m ρ c main_v3
    = Cert.ReluAttn.attnArr (Cert.ReluAttn.qArr (m ((c.tc : Thread nD τ).loc main_arg0)) (m ((c.tc : Thread nD τ).loc main_arg1)))
        (Cert.ReluAttn.kArr (m ((c.tc : Thread nD τ).loc main_arg0)) (m ((c.tc : Thread nD τ).loc main_arg1)))
        (Cert.ReluAttn.vArr (m ((c.tc : Thread nD τ).loc main_arg0)) (m ((c.tc : Thread nD τ).loc main_arg1))) := by
  refine ((W3_arr m ρ c 3).trans (AttnLaunch.final_attn (V2 m ρ) c)).trans ?_
  rw [second_q, second_k, second_v]

/-- The result's buffer at the last boundary is the whole computation of the four arguments. -/
theorem result_eq (c : Dev nD) :
    W4 (F := Ideal) m ρ c (Proc.devRef .tc main_v4)
      = Cert.ReluAttn.result (m ((c.tc : Thread nD τ).loc main_arg0)) (m ((c.tc : Thread nD τ).loc main_arg1))
          (m ((c.tc : Thread nD τ).loc main_arg2)) (m ((c.tc : Thread nD τ).loc main_arg3)) := by
  refine ((W4_arr m ρ c 3).trans (OutLaunch.final_out (V3 m ρ) c)).trans ?_
  rw [third_attn, third_wout, third_bias]
  rfl

end Cert.KernelIdeal.Composed

end
-- ==== Proof.RefValue.lean ====
import proofs.«169202_j19542101197412_1_alg».proof.Proof.Gen.ReferenceIdeal.Run
import proofs.«169202_j19542101197412_1_alg».proof.Proof.Gen.ReferenceIdeal.Read
import proofs.«169202_j19542101197412_1_alg».proof.Proof.Spec
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx

/-! ## The projection

Entry (b, n, e) of the first contraction is row n of batch b against row e of the projection weight, summed over the
512 input features: the contraction's one coordinate k is the last coordinate of both operands. -/

theorem proj_at (x0 : (⟨S2x4096x512, .f32⟩ : BufTy).Contents (Elt Ideal)) (x1 : (⟨S1536x512, .f32⟩ : BufTy).Contents (Elt Ideal))
    (b : Fin 2) (n : Fin 4096) (e : Fin 1536) :
    val_main_v0 (F := Ideal) x0 x1 (ix3 b n e) = Cert.ReluAttn.projAt x0 x1 b n e := by
  rw [val_main_v0_apply]
  unfold Cert.ReluAttn.projAt
  refine Finset.sum_congr rfl fun k _ => ?_
  have el : lidx_main_v0 (ix3 b n e) k = ix3 b n k := funext fun a => Fin.ext (by
    match a with
    | ⟨0, _⟩ => rfl
    | ⟨1, _⟩ => rfl
    | ⟨2, _⟩ => rfl)
  have er : ridx_main_v0 (ix3 b n e) k = ix2 e k := funext fun a => Fin.ext (by
    match a with
    | ⟨0, _⟩ => rfl
    | ⟨1, _⟩ => rfl)
  rw [el, er]

/-! ## Head-major entries read back in the projection

Entry (b, h, n, d) of a head-major array is entry (b, n, h, d) of the reshaped third, whose row-major position
((b * 4096 + n) * 8 + h) * 64 + d is position (b * 4096 + n) * 512 + (h * 64 + d) of the [2, 4096, 512] third; the
slice then shifts the last coordinate by the third's offset 0, 512 or 1024. So the entry is the projection at
(b, n, off + h * 64 + d). -/

theorem idx_q (b : Fin 2) (h : Fin 8) (n : Fin 4096) (d : Fin 64) :
    idx_main_v1 (idx_main_v4 (idx_main_v5 (ix4 b h n d))) = ix3 b n (Cert.ReluAttn.feat 0 (by omega) h d) := by
  funext a
  refine Fin.ext ?_
  have hb := b.isLt; have hh := h.isLt; have hn := n.isLt; have hd := d.isLt
  match a with
  | ⟨0, _⟩ =>
    show (((b.val * 4096 + n.val) * 8 + h.val) * 64 + d.val) / 2097152 = b.val
    omega
  | ⟨1, _⟩ =>
    show (((b.val * 4096 + n.val) * 8 + h.val) * 64 + d.val) / 512 % 4096 = n.val
    omega
  | ⟨2, _⟩ =>
    show (((b.val * 4096 + n.val) * 8 + h.val) * 64 + d.val) % 512 = 0 + (h.val * 64 + d.val)
    omega

theorem idx_k (b : Fin 2) (h : Fin 8) (n : Fin 4096) (d : Fin 64) :
    idx_main_v2 (idx_main_v6 (idx_main_v7 (ix4 b h n d))) = ix3 b n (Cert.ReluAttn.feat 512 (by omega) h d) := by
  funext a
  refine Fin.ext ?_
  have hb := b.isLt; have hh := h.isLt; have hn := n.isLt; have hd := d.isLt
  match a with
  | ⟨0, _⟩ =>
    show (((b.val * 4096 + n.val) * 8 + h.val) * 64 + d.val) / 2097152 = b.val
    omega
  | ⟨1, _⟩ =>
    show (((b.val * 4096 + n.val) * 8 + h.val) * 64 + d.val) / 512 % 4096 = n.val
    omega
  | ⟨2, _⟩ =>
    show 512 + (((b.val * 4096 + n.val) * 8 + h.val) * 64 + d.val) % 512 = 512 + (h.val * 64 + d.val)
    omega

theorem idx_v (b : Fin 2) (h : Fin 8) (n : Fin 4096) (d : Fin 64) :
    idx_main_v3 (idx_main_v8 (idx_main_v9 (ix4 b h n d))) = ix3 b n (Cert.ReluAttn.feat 1024 (by omega) h d) := by
  funext a
  refine Fin.ext ?_
  have hb := b.isLt; have hh := h.isLt; have hn := n.isLt; have hd := d.isLt
  match a with
  | ⟨0, _⟩ =>
    show (((b.val * 4096 + n.val) * 8 + h.val) * 64 + d.val) / 2097152 = b.val
    omega
  | ⟨1, _⟩ =>
    show (((b.val * 4096 + n.val) * 8 + h.val) * 64 + d.val) / 512 % 4096 = n.val
    omega
  | ⟨2, _⟩ =>
    show 1024 + (((b.val * 4096 + n.val) * 8 + h.val) * 64 + d.val) % 512 = 1024 + (h.val * 64 + d.val)
    omega

theorem v5_at (x0 : (⟨S2x4096x512, .f32⟩ : BufTy).Contents (Elt Ideal)) (x1 : (⟨S1536x512, .f32⟩ : BufTy).Contents (Elt Ideal))
    (b : Fin 2) (h : Fin 8) (n : Fin 4096) (d : Fin 64) :
    val_main_v5 (F := Ideal) x0 x1 (ix4 b h n d)
      = Cert.ReluAttn.projAt x0 x1 b n (Cert.ReluAttn.feat 0 (by omega) h d) := by
  rw [val_main_v5_apply, val_main_v4_apply, val_main_v1_apply, idx_q, proj_at]

theorem v7_at (x0 : (⟨S2x4096x512, .f32⟩ : BufTy).Contents (Elt Ideal)) (x1 : (⟨S1536x512, .f32⟩ : BufTy).Contents (Elt Ideal))
    (b : Fin 2) (h : Fin 8) (n : Fin 4096) (d : Fin 64) :
    val_main_v7 (F := Ideal) x0 x1 (ix4 b h n d)
      = Cert.ReluAttn.projAt x0 x1 b n (Cert.ReluAttn.feat 512 (by omega) h d) := by
  rw [val_main_v7_apply, val_main_v6_apply, val_main_v2_apply, idx_k, proj_at]

theorem v9_at (x0 : (⟨S2x4096x512, .f32⟩ : BufTy).Contents (Elt Ideal)) (x1 : (⟨S1536x512, .f32⟩ : BufTy).Contents (Elt Ideal))
    (b : Fin 2) (h : Fin 8) (n : Fin 4096) (d : Fin 64) :
    val_main_v9 (F := Ideal) x0 x1 (ix4 b h n d)
      = Cert.ReluAttn.projAt x0 x1 b n (Cert.ReluAttn.feat 1024 (by omega) h d) := by
  rw [val_main_v9_apply, val_main_v8_apply, val_main_v3_apply, idx_v, proj_at]

/-- The scaled queries: the first third times the broadcast scale word. -/
theorem v11_eq (x0 : (⟨S2x4096x512, .f32⟩ : BufTy).Contents (Elt Ideal)) (x1 : (⟨S1536x512, .f32⟩ : BufTy).Contents (Elt Ideal)) :
    val_main_v11 (F := Ideal) x0 x1 = Cert.ReluAttn.qArr x0 x1 := by
  funext i
  obtain ⟨b, h, n, d, rfl⟩ : ∃ (b : Fin 2) (h : Fin 8) (n : Fin 4096) (d : Fin 64), i = ix4 b h n d :=
    ⟨i 0, i 1, i 2, i 3, eq_ix4 i⟩
  rw [val_main_v11_apply, val_main_v10_apply, val_main_cst_apply, v5_at]
  rfl

/-- The keys: the second third. -/
theorem v7_eq (x0 : (⟨S2x4096x512, .f32⟩ : BufTy).Contents (Elt Ideal)) (x1 : (⟨S1536x512, .f32⟩ : BufTy).Contents (Elt Ideal)) :
    val_main_v7 (F := Ideal) x0 x1 = Cert.ReluAttn.kArr x0 x1 := by
  funext i
  obtain ⟨b, h, n, d, rfl⟩ : ∃ (b : Fin 2) (h : Fin 8) (n : Fin 4096) (d : Fin 64), i = ix4 b h n d :=
    ⟨i 0, i 1, i 2, i 3, eq_ix4 i⟩
  rw [v7_at]
  rfl

/-- The values: the last third. -/
theorem v9_eq (x0 : (⟨S2x4096x512, .f32⟩ : BufTy).Contents (Elt Ideal)) (x1 : (⟨S1536x512, .f32⟩ : BufTy).Contents (Elt Ideal)) :
    val_main_v9 (F := Ideal) x0 x1 = Cert.ReluAttn.vArr x0 x1 := by
  funext i
  obtain ⟨b, h, n, d, rfl⟩ : ∃ (b : Fin 2) (h : Fin 8) (n : Fin 4096) (d : Fin 64), i = ix4 b h n d :=
    ⟨i 0, i 1, i 2, i 3, eq_ix4 i⟩
  rw [v9_at]
  rfl

/-! ## Attention

Entry (b, h, n, d) of the second batched contraction sums over the key position m: its left operand at (b, h, n, m) is
the clipped score, itself the contraction over the 64 depths of the query row (b, h, n, ·) against the key row
(b, h, m, ·), and its right operand is the value row at (b, h, m, d). Both contractions' coordinates are read off the
index directly; no position is re-indexed. -/

/-- The clipped score at (b, h, n, m). -/
theorem v13_at (x0 : (⟨S2x4096x512, .f32⟩ : BufTy).Contents (Elt Ideal)) (x1 : (⟨S1536x512, .f32⟩ : BufTy).Contents (Elt Ideal))
    (b : Fin 2) (h : Fin 8) (n m : Fin 4096) :
    val_main_v13 (F := Ideal) x0 x1 (ix4 b h n m)
      = Cert.ReluAttn.scoreAt (val_main_v11 (F := Ideal) x0 x1) (val_main_v7 (F := Ideal) x0 x1) b h n m := by
  rw [val_main_v13_apply, val_main_v12_apply, val_main_call0_v0_apply, val_main_call0_cst_apply]
  unfold Cert.ReluAttn.scoreAt
  generalize val_main_v11 (F := Ideal) x0 x1 = q
  generalize val_main_v7 (F := Ideal) x0 x1 = kk
  have el : ∀ k : Fin 64, lidx_main_v12 (ix4 b h n m) k = ix4 b h n k := fun k => funext fun a => Fin.ext (by
    match a with
    | ⟨0, _⟩ => rfl
    | ⟨1, _⟩ => rfl
    | ⟨2, _⟩ => rfl
    | ⟨3, _⟩ => rfl)
  have er : ∀ k : Fin 64, ridx_main_v12 (ix4 b h n m) k = ix4 b h m k := fun k => funext fun a => Fin.ext (by
    match a with
    | ⟨0, _⟩ => rfl
    | ⟨1, _⟩ => rfl
    | ⟨2, _⟩ => rfl
    | ⟨3, _⟩ => rfl)
  have hs : (∑ k : Fin 64, q (lidx_main_v12 (ix4 b h n m) k) * kk (ridx_main_v12 (ix4 b h n m) k))
      = ∑ k : Fin 64, q (ix4 b h n k) * kk (ix4 b h m k) :=
    Finset.sum_congr rfl fun k _ => by rw [el k, er k]
  rw [hs]
  rfl

theorem v14_eq (x0 : (⟨S2x4096x512, .f32⟩ : BufTy).Contents (Elt Ideal)) (x1 : (⟨S1536x512, .f32⟩ : BufTy).Contents (Elt Ideal)) :
    val_main_v14 (F := Ideal) x0 x1
      = Cert.ReluAttn.attnArr (val_main_v11 (F := Ideal) x0 x1) (val_main_v7 (F := Ideal) x0 x1)
          (val_main_v9 (F := Ideal) x0 x1) := by
  funext i
  obtain ⟨b, h, n, d, rfl⟩ : ∃ (b : Fin 2) (h : Fin 8) (n : Fin 4096) (d : Fin 64), i = ix4 b h n d :=
    ⟨i 0, i 1, i 2, i 3, eq_ix4 i⟩
  rw [val_main_v14_apply]
  show _ = Cert.ReluAttn.attnAt _ _ _ b h n d
  unfold Cert.ReluAttn.attnAt
  refine Finset.sum_congr rfl fun m _ => ?_
  have e1 : lidx_main_v14 (ix4 b h n d) m = ix4 b h n m := funext fun a => Fin.ext (by
    match a with
    | ⟨0, _⟩ => rfl
    | ⟨1, _⟩ => rfl
    | ⟨2, _⟩ => rfl
    | ⟨3, _⟩ => rfl)
  have e2 : ridx_main_v14 (ix4 b h n d) m = ix4 b h m d := funext fun a => Fin.ext (by
    match a with
    | ⟨0, _⟩ => rfl
    | ⟨1, _⟩ => rfl
    | ⟨2, _⟩ => rfl
    | ⟨3, _⟩ => rfl)
  rw [e1, e2, v13_at]

/-! ## The output projection

Entry (b, n, o) of the last contraction sums over the merged feature e the reshaped head outputs at (b, n, e) against
row o of the output weight. Row-major position (b * 4096 + n) * 512 + e of [2, 4096, 512] is position
((b * 4096 + n) * 8 + e / 64) * 64 + e % 64 of [2, 4096, 8, 64], and the transpose puts that entry at
(b, e / 64, n, e % 64) of the head-major array: head e / 64 at depth e % 64. The bias is read at o through its two
broadcasts. -/

theorem idx_merge (b : Fin 2) (n : Fin 4096) (o e : Fin 512) :
    idx_main_v15 (idx_main_v16 (lidx_main_v17 (ix3 b n o) e))
      = ix4 b (Cert.ReluAttn.headOf e) n (Cert.ReluAttn.depthOf e) := by
  funext a
  refine Fin.ext ?_
  have hb := b.isLt; have hn := n.isLt; have he := e.isLt
  match a with
  | ⟨0, _⟩ =>
    show ((b.val * 4096 + n.val) * 512 + e.val) / 2097152 = b.val
    omega
  | ⟨1, _⟩ =>
    show ((b.val * 4096 + n.val) * 512 + e.val) / 64 % 8 = e.val / 64
    omega
  | ⟨2, _⟩ =>
    show ((b.val * 4096 + n.val) * 512 + e.val) / 512 % 4096 = n.val
    omega
  | ⟨3, _⟩ =>
    show ((b.val * 4096 + n.val) * 512 + e.val) % 64 = e.val % 64
    omega

theorem v20_eq (x0 : (⟨S2x4096x512, .f32⟩ : BufTy).Contents (Elt Ideal)) (x1 : (⟨S1536x512, .f32⟩ : BufTy).Contents (Elt Ideal))
    (x2 : (⟨S512x512, .f32⟩ : BufTy).Contents (Elt Ideal)) (x3 : (⟨S512, .f32⟩ : BufTy).Contents (Elt Ideal)) :
    val_main_v20 (F := Ideal) x0 x1 x2 x3 = Cert.ReluAttn.outArr (val_main_v14 (F := Ideal) x0 x1) x2 x3 := by
  funext i
  obtain ⟨b, n, o, rfl⟩ : ∃ (b : Fin 2) (n : Fin 4096) (o : Fin 512), i = ix3 b n o :=
    ⟨i 0, i 1, i 2, eq_ix3 i⟩
  rw [val_main_v20_apply, val_main_v17_apply, val_main_v19_apply, val_main_v18_apply]
  show _ = Cert.ReluAttn.outAt _ _ _ b n o
  unfold Cert.ReluAttn.outAt
  have hb : idx_main_v18 (idx_main_v19 (ix3 b n o)) = ix1 o := funext fun a => Fin.ext (by
    match a with
    | ⟨0, _⟩ => rfl)
  have hs : (∑ e : Fin 512, val_main_v16 (F := Ideal) x0 x1 (lidx_main_v17 (ix3 b n o) e) * x2 (ridx_main_v17 (ix3 b n o) e))
      = ∑ e : Fin 512, val_main_v14 (F := Ideal) x0 x1 (ix4 b (Cert.ReluAttn.headOf e) n (Cert.ReluAttn.depthOf e)) * x2 (ix2 o e) :=
    Finset.sum_congr rfl fun e _ => by
      have er : ridx_main_v17 (ix3 b n o) e = ix2 o e := funext fun a => Fin.ext (by
        match a with
        | ⟨0, _⟩ => rfl
        | ⟨1, _⟩ => rfl)
      rw [val_main_v16_apply, val_main_v15_apply, idx_merge, er]
  rw [hs, hb]
  rfl

theorem result_eq (x0 : (⟨S2x4096x512, .f32⟩ : BufTy).Contents (Elt Ideal)) (x1 : (⟨S1536x512, .f32⟩ : BufTy).Contents (Elt Ideal))
    (x2 : (⟨S512x512, .f32⟩ : BufTy).Contents (Elt Ideal)) (x3 : (⟨S512, .f32⟩ : BufTy).Contents (Elt Ideal)) :
    val_main_v20 (F := Ideal) x0 x1 x2 x3 = Cert.ReluAttn.result x0 x1 x2 x3 := by
  rw [v20_eq, v14_eq, v11_eq, v7_eq, v9_eq]
  rfl

end Cert.ReferenceIdeal.Stages

end
-- ==== Proof.lean ====
/-
  The certificate of a softmax-free attention layer run as three launches — the query/key/value projection with the
  head split and the query scale 1/8; per batch, head and 512-row query tile, the scores clipped below at zero against
  all 4096 value rows; the head merge with the output projection and its bias — against the same layer written as one
  host program of einsums.

  Over the extended reals the narrowing float casts are the identity, and each side is the same tower of sums of
  products (Proof/Spec.lean). The kernel's side: what each launch leaves in its output arrays, block by block, is
  one function of the arrays it found (Proof/QkvLaunch.lean, AttnLaunch.lean, OutLaunch.lean); the launches composed
  through the contents at each boundary give the result's buffer (Proof/KernelValue.lean), which the run over the
  three launches ends holding (Proof/KernelRun.lean). The reference's side: its generated run ends at its last
  stage, which read one operation at a time is the same function (Proof/RefValue.lean). No algebraic law joins the
  two beyond re-indexing each contraction by its one coordinate, so the precondition is never opened.
  The three frames are the generated ones (the reference's: its run with the result dropped); the idealization
  rewrote no operation, so there is nothing to preserve.
-/
import proofs.«169202_j19542101197412_1_alg».proof.Defs
import proofs.«169202_j19542101197412_1_alg».proof.Proof.Gen.Kernel
import proofs.«169202_j19542101197412_1_alg».proof.Proof.Gen.Kernel.Frame
import proofs.«169202_j19542101197412_1_alg».proof.Proof.Gen.KernelIdeal
import proofs.«169202_j19542101197412_1_alg».proof.Proof.Gen.KernelIdeal.Frame
import proofs.«169202_j19542101197412_1_alg».proof.Proof.Gen.ReferenceIdeal
import proofs.«169202_j19542101197412_1_alg».proof.Proof.Gen.ReferenceIdeal.Run
import proofs.«169202_j19542101197412_1_alg».proof.Proof.Gen.ReferenceIdeal.Read
import proofs.«169202_j19542101197412_1_alg».proof.Proof.Gen.Pre_finite_inputs
import proofs.«169202_j19542101197412_1_alg».proof.Proof.Spec
import proofs.«169202_j19542101197412_1_alg».proof.Proof.KernelRun
import proofs.«169202_j19542101197412_1_alg».proof.Proof.KernelValue
import proofs.«169202_j19542101197412_1_alg».proof.Proof.RefValue
import Idealize.ShloMosaic.Adequacy
import Idealize.ShloMosaic.Init

noncomputable section

namespace Cert.Proof

open Idealize.ShloMosaic Idealize.ShloMosaic.TcCoe Idealize.SL.Sem

/-- Both idealized programs end with the result at `Cert.ReluAttn.result` of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReluAttn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Composed.result_eq m ρ c), (h c).2⟩)
      (Cert.KernelIdeal.Launched.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, Cert.ReferenceIdeal.Stages.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
